-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x128 : Shape := ⟨3, ![16, 1024, 128]⟩
abbrev S16x1024x1024 : Shape := ⟨3, ![16, 1024, 1024]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S16x1024x128 : S_.BroadcastsInDim S16x1024x128 (![] : Fin 0 → Fin S16x1024x128.rank)
  reducesTo_S16x1024x128_S_d0_1_2 : S16x1024x128.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S128 .f32) (main_arg5 : FVec F S128x10 .f32) (main_arg6 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg5
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S16x1024x128 .f32) (main_arg1 : FVec F S16x1024x1024 .f32) (main_arg2 : FVec F S128x128 .f32) (main_arg3 : FVec F S128x128 .f32) (main_arg4 : FVec F S128 .f32) (main_arg5 : FVec F S128x10 .f32) (main_arg6 : FVec F S10 .f32) : IVec S_ 1 :=
  let main_v0 : FVec F S16x1024x128 .f32 := Host.absf main_arg0
  let main_cst : FVec F S_ .f32 := constant S_ .f32 0x7F800000#32
  let main_v1 : FVec F S16x1024x128 .f32 := broadcastInDim S16x1024x128 ![] bcast_S_S16x1024x128 main_cst
  let main_v2 : IVec S16x1024x128 1 := cmpf .olt main_v0 main_v1
  let main_c : IVec S_ 1 := constantI S_ 1 1#1
  let main_v3 : IVec S_ 1 := (fun x v => Host.reduce IntOp.andi x v reducesTo_S16x1024x128_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S16x1024x128 : Shape := ⟨3, ![16, 1024, 128]⟩
abbrev S16x1024x1024 : Shape := ⟨3, ![16, 1024, 1024]⟩
abbrev S128x128 : Shape := ⟨2, ![128, 128]⟩
abbrev S128 : Shape := ⟨1, ![128]⟩
abbrev S128x10 : Shape := ⟨2, ![128, 10]⟩
abbrev S10 : Shape := ⟨1, ![10]⟩
abbrev S16x128x1024 : Shape := ⟨3, ![16, 128, 1024]⟩
abbrev S_ : Shape := ⟨0, ![]⟩
abbrev S16x1x1024 : Shape := ⟨3, ![16, 1, 1024]⟩
abbrev S16x7x1024 : Shape := ⟨3, ![16, 7, 1024]⟩
abbrev S16x136x1024 : Shape := ⟨3, ![16, 136, 1024]⟩
abbrev S128x1 : Shape := ⟨2, ![128, 1]⟩
abbrev S128x7 : Shape := ⟨2, ![128, 7]⟩
abbrev S128x136 : Shape := ⟨2, ![128, 136]⟩
abbrev S1 : Shape := ⟨1, ![1]⟩
abbrev S16x1x128 : Shape := ⟨3, ![16, 1, 128]⟩
abbrev S1x1024x1024 : Shape := ⟨3, ![1, 1024, 1024]⟩
abbrev S1x136x1024 : Shape := ⟨3, ![1, 136, 1024]⟩
abbrev S1x1x128 : Shape := ⟨3, ![1, 1, 128]⟩
abbrev S1024x1024 : Shape := ⟨2, ![1024, 1024]⟩
abbrev S136x1024 : Shape := ⟨2, ![136, 1024]⟩
abbrev S128x1024 : Shape := ⟨2, ![128, 1024]⟩
abbrev S1x128 : Shape := ⟨2, ![1, 128]⟩
abbrev S16x1x10 : Shape := ⟨3, ![16, 1, 10]⟩
abbrev S16x10 : Shape := ⟨2, ![16, 10]⟩
abbrev S1x10 : Shape := ⟨2, ![1, 10]⟩

abbrev nBuf : Space → Nat
  | .hbm => 39
  | .vmem => 9
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S16x128x1024, .f32⟩
  | .hbm, ⟨8, _⟩ => ⟨S_, .f32⟩
  | .hbm, ⟨9, _⟩ => ⟨S16x1x1024, .f32⟩
  | .hbm, ⟨10, _⟩ => ⟨S_, .f32⟩
  | .hbm, ⟨11, _⟩ => ⟨S16x7x1024, .f32⟩
  | .hbm, ⟨12, _⟩ => ⟨S16x136x1024, .f32⟩
  | .hbm, ⟨13, _⟩ => ⟨S16x136x1024, .bf16⟩
  | .hbm, ⟨14, _⟩ => ⟨S128x128, .f32⟩
  | .hbm, ⟨15, _⟩ => ⟨S128x1, .f32⟩
  | .hbm, ⟨16, _⟩ => ⟨S_, .f32⟩
  | .hbm, ⟨17, _⟩ => ⟨S128x7, .f32⟩
  | .hbm, ⟨18, _⟩ => ⟨S128x136, .f32⟩
  | .hbm, ⟨19, _⟩ => ⟨S128x136, .bf16⟩
  | .hbm, ⟨20, _⟩ => ⟨S128x128, .f32⟩
  | .hbm, ⟨21, _⟩ => ⟨S128x128, .bf16⟩
  | .hbm, ⟨22, _⟩ => ⟨S_, .f32⟩
  | .hbm, ⟨23, _⟩ => ⟨S128x128, .f32⟩
  | .hbm, ⟨24, _⟩ => ⟨S_, .i32⟩
  | .hbm, ⟨25, _⟩ => ⟨S1, .i32⟩
  | .hbm, ⟨26, _⟩ => ⟨S128x128, .f32⟩
  | .hbm, ⟨27, _⟩ => ⟨S_, .f32⟩
  | .hbm, ⟨28, _⟩ => ⟨S128, .f32⟩
  | .hbm, ⟨29, _⟩ => ⟨S_, .i32⟩
  | .hbm, ⟨30, _⟩ => ⟨S1, .i32⟩
  | .hbm, ⟨31, _⟩ => ⟨S128, .f32⟩
  | .hbm, ⟨32, _⟩ => ⟨S16x1x128, .f32⟩
  | .hbm, ⟨33, _⟩ => ⟨S16x1x10, .f32⟩
  | .hbm, ⟨34, _⟩ => ⟨S16x10, .f32⟩
  | .hbm, ⟨35, _⟩ => ⟨S10, .f32⟩
  | .hbm, ⟨36, _⟩ => ⟨S1x10, .f32⟩
  | .hbm, ⟨37, _⟩ => ⟨S16x10, .f32⟩
  | .hbm, ⟨38, _⟩ => ⟨S16x10, .f32⟩
  | .local _ .vmem, ⟨0, _⟩ => ⟨S1x1024x1024, .f32⟩
  | .local _ .vmem, ⟨1, _⟩ => ⟨S1x1024x1024, .f32⟩
  | .local _ .vmem, ⟨2, _⟩ => ⟨S1x136x1024, .bf16⟩
  | .local _ .vmem, ⟨3, _⟩ => ⟨S1x136x1024, .bf16⟩
  | .local _ .vmem, ⟨4, _⟩ => ⟨S128x136, .bf16⟩
  | .local _ .vmem, ⟨5, _⟩ => ⟨S128x128, .bf16⟩
  | .local _ .vmem, ⟨6, _⟩ => ⟨S128x128, .f32⟩
  | .local _ .vmem, ⟨7, _⟩ => ⟨S1x1x128, .f32⟩
  | .local _ .vmem, ⟨8, _⟩ => ⟨S1x1x128, .f32⟩
  | _, _ => ⟨S16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x136x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x136 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16x1024x128_S16x128x1024_0_2_1 : S16x1024x128.Transposes [0, 2, 1] S16x128x1024
  bcast_S_S16x1x1024 : S_.BroadcastsInDim S16x1x1024 (![] : Fin 0 → Fin S16x1x1024.rank)
  bcast_S_S16x7x1024 : S_.BroadcastsInDim S16x7x1024 (![] : Fin 0 → Fin S16x7x1024.rank)
  concatenates_S16x128x1024_S16x1x1024_S16x7x1024_S16x136x1024_d1 : Shape.Concatenates [S16x128x1024, S16x1x1024, S16x7x1024] S16x136x1024 1
  bitsLt_bf16_f32 : FTy.bits .bf16 < FTy.bits .f32
  transposes_S128x128_S128x128_1_0 : S128x128.Transposes [1, 0] S128x128
  bcast_S128_S128x1_0 : S128.BroadcastsInDim S128x1 (![0] : Fin 1 → Fin S128x1.rank)
  bcast_S_S128x7 : S_.BroadcastsInDim S128x7 (![] : Fin 0 → Fin S128x7.rank)
  concatenates_S128x128_S128x1_S128x7_S128x136_d1 : Shape.Concatenates [S128x128, S128x1, S128x7] S128x136 1
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  natLt_1_32 : 1 < 32
  inb_S1x136x1024_S1x136x1024_0_0_0 : ∀ a, (![0, 0, 0] : Fin 3 → Nat) a + S1x136x1024.size a ≤ S1x136x1024.size a
  h_S1x136x1024 : 0 < S1x136x1024.numel
  shapeCasts_S1x136x1024_S136x1024 : S1x136x1024.ShapeCasts S136x1024
  slices_S136x1024_o0_0_S128x1024 : S136x1024.Slices ![0, 0] S128x1024
  inb_S128x136_S128x136_0_0 : ∀ a, (![0, 0] : Fin 2 → Nat) a + S128x136.size a ≤ S128x136.size a
  h_S128x136 : 0 < S128x136.numel
  shapeCasts_S128x136_S128x136 : S128x136.ShapeCasts S128x136
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S128x1024_S128 : S128x1024.Reduces [1] S128
  shapeCasts_S128_S128x1 : S128.ShapeCasts S128x1
  transposes_S128x1_p1_0_S1x128 : S128x1.Transposes [1, 0] S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S16x1x128_S16x1x10_0_0_0 : S16x1x128.Slices ![0, 0, 0] S16x1x10
  shapeCasts_S16x1x10_S16x10 : S16x1x10.ShapeCasts S16x10
  slices_S128_S10_0 : S128.Slices ![0] S10
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  scatter_S128x128_S1_S128x10_01_n_1_0_wf : ScatterDims.WF S128x128 S1 S128x10 [0, 1] [] [1] 0
  scatter_S128_S1_S10_0_n_0_0_wf : ScatterDims.WF S128 S1 S10 [0] [] [0] 0
  dot_S128x1024_S1024x1024_S128x1024_1_0_0_1_n_n_wf : DotDims.WF S128x1024 S1024x1024 S128x1024 [1] [0] [0] [1] [] []
  dot_S128x136_S136x1024_S128x1024_1_0_0_1_n_n_wf : DotDims.WF S128x136 S136x1024 S128x1024 [1] [0] [0] [1] [] []
  dot_S128x128_S128x1024_S128x1024_1_0_0_1_n_n_wf : DotDims.WF S128x128 S128x1024 S128x1024 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x136x1024.size a ≤ S16x136x1024.size a
  hwx0_1 : ∀ i : grid0.Coords, EltTy.bits .bf16 = 32 ∨ (Rect.block (s := S16x136x1024) S1x136x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x136.size a ≤ S128x136.size a
  hwx0_2 : ∀ i : grid0.Coords, EltTy.bits .bf16 = 32 ∨ (Rect.block (s := S128x136) S128x136.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S16x1x128.size a
  hwx0_5 : ∀ i : grid0.Coords, EltTy.bits .f32 = 32 ∨ (Rect.block (s := S16x1x128) S1x1x128.size (cc0_transform_5 i) (hinb0_5 i)).WholeWords (EltTy.packing .f32)

variable [Facts₀]

def scatter_S128x128_S1_S128x10_01_n_1_0 : ScatterDims S128x128 S1 S128x10 where
  updateWindowDims := [0, 1]
  insertedWindowDims := []
  scatterDimsToOperandDims := [1]
  indexVectorDim := 0
  wf := scatter_S128x128_S1_S128x10_01_n_1_0_wf
def scatter_S128_S1_S10_0_n_0_0 : ScatterDims S128 S1 S10 where
  updateWindowDims := [0]
  insertedWindowDims := []
  scatterDimsToOperandDims := [0]
  indexVectorDim := 0
  wf := scatter_S128_S1_S10_0_n_0_0_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x136_S136x1024_S128x1024_1_0_0_1_n_n : DotDims S128x136 S136x1024 S128x1024 where
  lhsContracting := [1]
  rhsContracting := [0]
  lhsNonContracting := [0]
  rhsNonContracting := [1]
  lhsBatch := []
  rhsBatch := []
  wf := dot_S128x136_S136x1024_S128x1024_1_0_0_1_n_n_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x136x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x136.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024x128 : Shape := ⟨3, ![16, 1024, 128]⟩
abbrev S16x1024x1024 : Shape := ⟨3, ![16, 1024, 1024]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S1x1x128 : Shape := ⟨3, ![1, 1, 128]⟩
abbrev S16x128 : Shape := ⟨2, ![16, 128]⟩
abbrev S16x10 : Shape := ⟨2, ![16, 10]⟩
abbrev S1x10 : Shape := ⟨2, ![1, 10]⟩

abbrev nBuf : Space → Nat
  | .hbm => 30
  | .vmem => 0
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S_, .f32⟩
  | .hbm, ⟨8, _⟩ => ⟨S16x1024x1024, .f32⟩
  | .hbm, ⟨9, _⟩ => ⟨S16x1024x1024, .i1⟩
  | .hbm, ⟨10, _⟩ => ⟨S16x1024x1024, .f32⟩
  | .hbm, ⟨11, _⟩ => ⟨S16x1024x128, .f32⟩
  | .hbm, ⟨12, _⟩ => ⟨S16x1024x128, .f32⟩
  | .hbm, ⟨13, _⟩ => ⟨S16x1024x128, .f32⟩
  | .hbm, ⟨14, _⟩ => ⟨S16x1024x128, .f32⟩
  | .hbm, ⟨15, _⟩ => ⟨S1x1x128, .f32⟩
  | .hbm, ⟨16, _⟩ => ⟨S16x1024x128, .f32⟩
  | .hbm, ⟨17, _⟩ => ⟨S16x1024x128, .f32⟩
  | .hbm, ⟨18, _⟩ => ⟨S_, .f32⟩
  | .hbm, ⟨19, _⟩ => ⟨S16x1024x128, .f32⟩
  | .hbm, ⟨20, _⟩ => ⟨S16x1024x128, .f32⟩
  | .hbm, ⟨21, _⟩ => ⟨S_, .f32⟩
  | .hbm, ⟨22, _⟩ => ⟨S16x128, .f32⟩
  | .hbm, ⟨23, _⟩ => ⟨S_, .f32⟩
  | .hbm, ⟨24, _⟩ => ⟨S16x128, .f32⟩
  | .hbm, ⟨25, _⟩ => ⟨S16x128, .f32⟩
  | .hbm, ⟨26, _⟩ => ⟨S16x10, .f32⟩
  | .hbm, ⟨27, _⟩ => ⟨S1x10, .f32⟩
  | .hbm, ⟨28, _⟩ => ⟨S16x10, .f32⟩
  | .hbm, ⟨29, _⟩ => ⟨S16x10, .f32⟩
  | _, _ => ⟨S16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)
  bcast_S128_S1x1x128_2 : S128.BroadcastsInDim S1x1x128 (![2] : Fin 1 → Fin S1x1x128.rank)
  bcast_S1x1x128_S16x1024x128_0_1_2 : S1x1x128.BroadcastsInDim S16x1024x128 (![0, 1, 2] : Fin 3 → Fin S16x1024x128.rank)
  bcast_S_S16x1024x128 : S_.BroadcastsInDim S16x1024x128 (![] : Fin 0 → Fin S16x1024x128.rank)
  reducesTo_S16x1024x128_S16x128_d1 : S16x1024x128.ReducesTo [1] S16x128
  h_S_ : 0 < S_.numel
  bcast_S_S16x128 : S_.BroadcastsInDim S16x128 (![] : Fin 0 → Fin S16x128.rank)
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  dot_S16x1024x1024_S16x1024x128_S16x1024x128_1_1_2_2_0_0_wf : DotDims.WF S16x1024x1024 S16x1024x128 S16x1024x128 [1] [1] [2] [2] [0] [0]
  dot_S16x1024x128_S128x128_S16x1024x128_2_0_01_1_n_n_wf : DotDims.WF S16x1024x128 S128x128 S16x1024x128 [2] [0] [0, 1] [1] [] []
  dot_S16x128_S128x10_S16x10_1_0_0_1_n_n_wf : DotDims.WF S16x128 S128x10 S16x10 [1] [0] [0] [1] [] []

variable [Facts₀]

def dot_S16x1024x1024_S16x1024x128_S16x1024x128_1_1_2_2_0_0 : DotDims S16x1024x1024 S16x1024x128 S16x1024x128 where
  lhsContracting := [1]
  rhsContracting := [1]
  lhsNonContracting := [2]
  rhsNonContracting := [2]
  lhsBatch := [0]
  rhsBatch := [0]
  wf := dot_S16x1024x1024_S16x1024x128_S16x1024x128_1_1_2_2_0_0_wf
def dot_S16x1024x128_S128x128_S16x1024x128_2_0_01_1_n_n : DotDims S16x1024x128 S128x128 S16x1024x128 where
  lhsContracting := [2]
  rhsContracting := [0]
  lhsNonContracting := [0, 1]
  rhsNonContracting := [1]
  lhsBatch := []
  rhsBatch := []
  wf := dot_S16x1024x128_S128x128_S16x1024x128_2_0_01_1_n_n_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf

class Facts : Prop extends Facts₀ where

variable [Facts]
-- ==== Proof.KernelRegion.lean ====
/-
  The frame of the program: it runs to the end, faults nowhere, and leaves its seven argument arrays as launched.
  @main is host operations, one region over the 16 graphs, host operations. Before the region the host builds the
  region's four computed operands (the fifth, the adjacency, is an argument); each grid point g stages graph g's
  adjacency slab and augmented transposed features, and the three weight arrays whole, and writes back one row of 128
  lanes. The body loads the five input blocks whole, computes, and stores the output row whole, so after the body the
  output's buffer holds the stored value of the input blocks, whatever it held before, and every input's buffer holds its
  block. No host operation writes an argument array, and no operation after the region writes an array the region stages.
-/
import proofs.«133347_g37177236914914_cont_8to1_b_461_15_alg».proof.Proof.Gen.Kernel.Launch
import proofs.«133347_g37177236914914_cont_8to1_b_461_15_alg».proof.Proof.Gen.Kernel.Skeleton
import proofs.«133347_g37177236914914_cont_8to1_b_461_15_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped references, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array the region stages: each writes its own result buffer, and none of those is such an array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, fetched there or not: where it is not fetched
    its block index has not moved since the point that did fetch it (the three weight arrays are fetched once). -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every staged array at what the proof data says and every other buffer as the tail leaves
    it, the seven argument arrays end as launched: the adjacency is a staged input, never written back; the other six
    are staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      ((h c).1 0).trans (((dats 0 c).arrAt_in 0 rfl _).trans ((hA c 0).trans (V_main_arg1 m c))),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's accesses: every load and the store is of a whole buffer -/

abbrev rAdj : Rect S1x1024x1024 := Rect.unit (s := S1x1024x1024) ![0, 0, 0] S1x1024x1024.size inb_S1x1024x1024_S1x1024x1024_0_0_0
abbrev rFeat : Rect S1x136x1024 := Rect.unit (s := S1x136x1024) ![0, 0, 0] S1x136x1024.size inb_S1x136x1024_S1x136x1024_0_0_0
abbrev rRoot : Rect S128x136 := Rect.unit (s := S128x136) ![0, 0] S128x136.size inb_S128x136_S128x136_0_0
abbrev rSq : Rect S128x128 := Rect.unit (s := S128x128) ![0, 0] S128x128.size inb_S128x128_S128x128_0_0
abbrev rOut : Rect S1x1x128 := Rect.unit (s := S1x1x128) ![0, 0, 0] S1x1x128.size inb_S1x1x128_S1x1x128_0_0_0

/-- The output row's buffer after the body, from the five input blocks: its one store. -/
def outRow (x0 : Vec F S1x1024x1024 .f32) (x1 : Vec F S1x136x1024 .bf16) (x2 : Vec F S128x136 .bf16) (x3 : Vec F S128x128 .bf16) (x4 : Vec F S128x128 .f32) : Vec F S1x1x128 .f32 :=
  View.canon [⟨rOut, k0_pay1 (View.ld x0 rAdj) (View.ld x1 rFeat) (View.ld x2 rRoot) (View.ld x3 rSq) (View.ld x4 rSq)⟩]

/-- The store covers the buffer. -/
theorem cover_outRow (p0 : Vec F S1x1x128 .f32) (y : S1x1x128.Idx) :
    ∃ pc ∈ ([⟨rOut, p0⟩] : List (View.Piece (Elt F) S1x1x128 .f32)), y ∈ pc.1.set :=
  View.cover_of_tiled [⟨rOut, p0⟩] S1x1x128.size (by rfl) y

/-! ## The body's triple -/

set_option maxHeartbeats 1000000 in
/-- The body on whole staging memrefs, the inputs' at contents `xW` and the output's at anything, runs to the continuation
    holding the inputs' as they were and the output's at `outRow` of the inputs'. (The body also loads the output row
    before storing it; the loaded value is not used.) -/
theorem sound_kernel (c : Dev nD) (E : Set ℕ) (i : grid0.Coords) (arg1 : Memref sig .tc .vmem S1x1024x1024 .f32) (harg1 : arg1.IsWhole) (arg2 : Memref sig .tc .vmem S1x136x1024 .bf16) (harg2 : arg2.IsWhole) (arg3 : Memref sig .tc .vmem S128x136 .bf16) (harg3 : arg3.IsWhole) (arg4 : Memref sig .tc .vmem S128x128 .bf16) (harg4 : arg4.IsWhole) (arg5 : Memref sig .tc .vmem S128x128 .f32) (harg5 : arg5.IsWhole) (arg6 : Memref sig .tc .vmem S1x1x128 .f32) (harg6 : arg6.IsWhole)
    (x0 : Vec F S1x1024x1024 .f32) (x1 : Vec F S1x136x1024 .bf16) (x2 : Vec F S128x136 .bf16) (x3 : Vec F S128x128 .bf16) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outRow x0 x1 x2 x3 x4)) -∗ K ⟨⟩))
      ⊢ wp frame (wpE (defs₀ (F := F)) Variants.none c none) E (cc0__fused_body i arg1 harg1 arg2 harg2 arg3 harg3 arg4 harg4 arg5 harg5 arg6 harg6) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_outRow _)

/-! ## The pipeline's proof data -/

/-- The arrays as the region finds them; after the body at point `t` each input's buffer at its block and the output's
    at `outRow` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outRow (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outRow (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at what the proof
    data says (the output array overwritten row by row by what the body left) and every other unscoped buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Region

end
-- ==== Proof.KernelIdealRegion.lean ====
/-
  The frame of the program: it runs to the end, faults nowhere, and leaves its seven argument arrays as launched.
  @main is host operations, one region over the 16 graphs, host operations. Before the region the host builds the
  region's four computed operands (the fifth, the adjacency, is an argument); each grid point g stages graph g's
  adjacency slab and augmented transposed features, and the three weight arrays whole, and writes back one row of 128
  lanes. The body loads the five input blocks whole, computes, and stores the output row whole, so after the body the
  output's buffer holds the stored value of the input blocks, whatever it held before, and every input's buffer holds its
  block. No host operation writes an argument array, and no operation after the region writes an array the region stages.
-/
import proofs.«133347_g37177236914914_cont_8to1_b_461_15_alg».proof.Proof.Gen.KernelIdeal.Launch
import proofs.«133347_g37177236914914_cont_8to1_b_461_15_alg».proof.Proof.Gen.KernelIdeal.Skeleton
import proofs.«133347_g37177236914914_cont_8to1_b_461_15_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped references, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array the region stages: each writes its own result buffer, and none of those is such an array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, fetched there or not: where it is not fetched
    its block index has not moved since the point that did fetch it (the three weight arrays are fetched once). -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every staged array at what the proof data says and every other buffer as the tail leaves
    it, the seven argument arrays end as launched: the adjacency is a staged input, never written back; the other six
    are staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      ((h c).1 0).trans (((dats 0 c).arrAt_in 0 rfl _).trans ((hA c 0).trans (V_main_arg1 m c))),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's accesses: every load and the store is of a whole buffer -/

abbrev rAdj : Rect S1x1024x1024 := Rect.unit (s := S1x1024x1024) ![0, 0, 0] S1x1024x1024.size inb_S1x1024x1024_S1x1024x1024_0_0_0
abbrev rFeat : Rect S1x136x1024 := Rect.unit (s := S1x136x1024) ![0, 0, 0] S1x136x1024.size inb_S1x136x1024_S1x136x1024_0_0_0
abbrev rRoot : Rect S128x136 := Rect.unit (s := S128x136) ![0, 0] S128x136.size inb_S128x136_S128x136_0_0
abbrev rSq : Rect S128x128 := Rect.unit (s := S128x128) ![0, 0] S128x128.size inb_S128x128_S128x128_0_0
abbrev rOut : Rect S1x1x128 := Rect.unit (s := S1x1x128) ![0, 0, 0] S1x1x128.size inb_S1x1x128_S1x1x128_0_0_0

/-- The output row's buffer after the body, from the five input blocks: its one store. -/
def outRow (x0 : Vec F S1x1024x1024 .f32) (x1 : Vec F S1x136x1024 .bf16) (x2 : Vec F S128x136 .bf16) (x3 : Vec F S128x128 .bf16) (x4 : Vec F S128x128 .f32) : Vec F S1x1x128 .f32 :=
  View.canon [⟨rOut, k0_pay1 (View.ld x0 rAdj) (View.ld x1 rFeat) (View.ld x2 rRoot) (View.ld x3 rSq) (View.ld x4 rSq)⟩]

/-- The store covers the buffer. -/
theorem cover_outRow (p0 : Vec F S1x1x128 .f32) (y : S1x1x128.Idx) :
    ∃ pc ∈ ([⟨rOut, p0⟩] : List (View.Piece (Elt F) S1x1x128 .f32)), y ∈ pc.1.set :=
  View.cover_of_tiled [⟨rOut, p0⟩] S1x1x128.size (by rfl) y

/-! ## The body's triple -/

set_option maxHeartbeats 1000000 in
/-- The body on whole staging memrefs, the inputs' at contents `xW` and the output's at anything, runs to the continuation
    holding the inputs' as they were and the output's at `outRow` of the inputs'. (The body also loads the output row
    before storing it; the loaded value is not used.) -/
theorem sound_kernel (c : Dev nD) (E : Set ℕ) (i : grid0.Coords) (arg1 : Memref sig .tc .vmem S1x1024x1024 .f32) (harg1 : arg1.IsWhole) (arg2 : Memref sig .tc .vmem S1x136x1024 .bf16) (harg2 : arg2.IsWhole) (arg3 : Memref sig .tc .vmem S128x136 .bf16) (harg3 : arg3.IsWhole) (arg4 : Memref sig .tc .vmem S128x128 .bf16) (harg4 : arg4.IsWhole) (arg5 : Memref sig .tc .vmem S128x128 .f32) (harg5 : arg5.IsWhole) (arg6 : Memref sig .tc .vmem S1x1x128 .f32) (harg6 : arg6.IsWhole)
    (x0 : Vec F S1x1024x1024 .f32) (x1 : Vec F S1x136x1024 .bf16) (x2 : Vec F S128x136 .bf16) (x3 : Vec F S128x128 .bf16) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outRow x0 x1 x2 x3 x4)) -∗ K ⟨⟩))
      ⊢ wp frame (wpE (defs₀ (F := F)) Variants.none c none) E (cc0__fused_body i arg1 harg1 arg2 harg2 arg3 harg3 arg4 harg4 arg5 harg5 arg6 harg6) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_outRow _)

/-! ## The pipeline's proof data -/

/-- The arrays as the region finds them; after the body at point `t` each input's buffer at its block and the output's
    at `outRow` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outRow (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outRow (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at what the proof
    data says (the output array overwritten row by row by what the body left) and every other unscoped buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Region

end
-- ==== Proof.KernelTerms.lean ====
/-
  The kernel program's pure terms, named: the five arrays its host operations build before the region
  (the features transposed with a row of ones and seven rows of zeros appended; the root weights transposed with the
  bias as one more column and seven columns of zeros; the neighbour weights transposed; the classifier weights and
  the classifier bias set into zero arrays of 128 lanes), the host operations after the region (the first ten lanes
  of the region's result plus the first ten lanes of the padded bias), and what the region's body stores for one
  graph, read at a lane: the pooled hidden row times the padded classifier.
-/
import proofs.«133347_g37177236914914_cont_8to1_b_461_15_alg».proof.Proof.Gen.KernelIdeal
import Idealize.ShloMosaic.Lib.ValueIdx

noncomputable section

open scoped BigOperators

namespace Cert.KernelIdeal.Terms

open Idealize.ShloMosaic Idealize.ShloMosaic.ValueIdx Cert.KernelIdeal Cert.KernelIdeal.Gen

variable {F : FTy → Type} [FloatOps F]

/-- The features of every graph transposed to [graph, feature, node], with a row of ones (row 128) and seven rows of
    zeros (rows 129 to 135) appended along the feature axis, rounded to bf16. -/
def featT (x : FVec F S16x1024x128 .f32) : FVec F S16x136x1024 .bf16 :=
  truncf .bf16 (concatenate S16x136x1024 1
    [⟨S16x128x1024, transpose S16x128x1024 [0, 2, 1] x transposes_S16x1024x128_S16x128x1024_0_2_1⟩,
     ⟨S16x1x1024, broadcastInDim S16x1x1024 ![] bcast_S_S16x1x1024 (constant S_ .f32 0x3F800000#32)⟩,
     ⟨S16x7x1024, broadcastInDim S16x7x1024 ![] bcast_S_S16x7x1024 (constant S_ .f32 0x00000000#32)⟩]
    concatenates_S16x128x1024_S16x1x1024_S16x7x1024_S16x136x1024_d1) bitsLt_bf16_f32

/-- The root weights transposed to [hidden, feature], with the bias as column 128 and seven columns of zeros
    (columns 129 to 135) appended, rounded to bf16. -/
def rootT (Wr : FVec F S128x128 .f32) (b : FVec F S128 .f32) : FVec F S128x136 .bf16 :=
  truncf .bf16 (concatenate S128x136 1
    [⟨S128x128, transpose S128x128 [1, 0] Wr transposes_S128x128_S128x128_1_0⟩,
     ⟨S128x1, broadcastInDim S128x1 ![0] bcast_S128_S128x1_0 b⟩,
     ⟨S128x7, broadcastInDim S128x7 ![] bcast_S_S128x7 (constant S_ .f32 0x00000000#32)⟩]
    concatenates_S128x128_S128x1_S128x7_S128x136_d1) bitsLt_bf16_f32

/-- The neighbour weights transposed to [hidden, feature], rounded to bf16. -/
def nbrT (Wn : FVec F S128x128 .f32) : FVec F S128x128 .bf16 :=
  truncf .bf16 (transpose S128x128 [1, 0] Wn transposes_S128x128_S128x128_1_0) bitsLt_bf16_f32

/-- The classifier weights set into the first ten lanes of a zero [hidden, 128] array. -/
def clsPad (Wc : FVec F S128x10 .f32) : FVec F S128x128 .f32 :=
  Host.scatter scatter_S128x128_S1_S128x10_01_n_1_0 (fun _ b => b)
    (broadcastInDim S128x128 ![] bcast_S_S128x128 (constant S_ .f32 0x00000000#32))
    (broadcastInDim S1 ![] bcast_S_S1 (constantI S_ 32 0#32)) Wc

/-- The classifier bias set into the first ten lanes of a zero vector of 128 lanes. -/
def biasPad (bc : FVec F S10 .f32) : FVec F S128 .f32 :=
  Host.scatter scatter_S128_S1_S10_0_n_0_0 (fun _ b => b)
    (broadcastInDim S128 ![] bcast_S_S128 (constant S_ .f32 0x00000000#32))
    (broadcastInDim S1 ![] bcast_S_S1 (constantI S_ 32 0#32)) bc

/-- The host operations after the region: the first ten lanes of each graph's result row, plus the first ten lanes
    of the padded bias, the same for every graph. -/
def tail (o : FVec F S16x1x128 .f32) (bp : FVec F S128 .f32) : FVec F S16x10 .f32 :=
  addf (shapeCast S16x10 (extractStridedSlice S16x1x10 ![0, 0, 0] o slices_S16x1x128_S16x1x10_0_0_0) shapeCasts_S16x1x10_S16x10)
    (broadcastInDim S16x10 ![0, 1] bcast_S1x10_S16x10_0_1
      (broadcastInDim S1x10 ![1] bcast_S10_S1x10_1 (extractStridedSlice S10 ![0] bp slices_S128_S10_0)))

/-- What the body stores for one graph, at lane `c`, from the blocks it loads (the graph's adjacency slab `a`, its
    augmented transposed features `xt`, the augmented root weights `wr`, the neighbour weights `wn`, the padded
    classifier `wc`), on the extended reals: with  e i n = 1 where a[i, n] > 1/2 else 0,
      aggT d n = sum_i xt[d, i] * e i n                      (d < 128)
      hT h n   = max (sum_k wr[h, k] * xt[k, n]  +  sum_d wn[h, d] * aggT d n) 0
      pooled h = (sum_n hT h n) * 2^-10
      out c    = sum_h pooled h * wc[h, c]. -/
def blockLogit (a : FVec Ideal S1x1024x1024 .f32) (xt : FVec Ideal S1x136x1024 .bf16) (wr : FVec Ideal S128x136 .bf16)
    (wn : FVec Ideal S128x128 .bf16) (wc : FVec Ideal S128x128 .f32) (c : Fin 128) : EReal :=
  ∑ h : Fin 128,
    ((∑ n : Fin 1024,
        max ((∑ k : Fin 136, wr (ix2 h k) * xt (ix3 (0 : Fin 1) k n))
              + ∑ d : Fin 128, wn (ix2 h d) *
                  (∑ i : Fin 1024, xt (ix3 (0 : Fin 1) (⟨d.val, by omega⟩ : Fin 136) i) *
                    FloatOps.uitofp (F := Ideal) .f32 (FloatOps.cmpf (F := Ideal) .ogt (a (ix3 (0 : Fin 1) i n))
                      (FloatOps.ofBits (F := Ideal) .f32 0x3F000000#32))))
            (FloatOps.ofBits (F := Ideal) .f32 0x00000000#32))
      * FloatOps.ofBits (F := Ideal) .f32 0x3A800000#32)
    * wc (ix2 h c)

end Cert.KernelIdeal.Terms

end
-- ==== Proof.RegionOut.lean ====
/-
  What the region leaves in its output array, as a function of its five operand arrays: row g of the [16, 1, 128] result
  is the block function of graph g's adjacency slab and augmented transposed features and of the three weight arrays.
-/
import proofs.«133347_g37177236914914_cont_8to1_b_461_15_alg».proof.Proof.KernelTerms

noncomputable section

namespace Cert.KernelIdeal.Terms

open Idealize.ShloMosaic Idealize.ShloMosaic.ValueIdx Cert.KernelIdeal Cert.KernelIdeal.Gen

/-- Graph `g`'s slab of a batched array, as a block with a leading unit axis. -/
def slab {n k : ℕ} {φ : FTy} (A : FVec Ideal ⟨3, ![16, n, k]⟩ φ) (g : Fin 16) : FVec Ideal ⟨3, ![1, n, k]⟩ φ :=
  fun y => A (ix3 g (y 1) (y 2))

/-- What the region leaves in its output array, from its five operand arrays: row g is the block function of graph g's
    slabs and the three weight arrays. -/
def regionOut (adj : FVec Ideal S16x1024x1024 .f32) (xt : FVec Ideal S16x136x1024 .bf16) (wr : FVec Ideal S128x136 .bf16)
    (wn : FVec Ideal S128x128 .bf16) (wc : FVec Ideal S128x128 .f32) : FVec Ideal S16x1x128 .f32 :=
  fun i => blockLogit (slab adj (i 0)) (slab xt (i 0)) wr wn wc (i 2)

end Cert.KernelIdeal.Terms

end
-- ==== Proof.LibKeepdims.lean ====
/-
  Layout operations of a `keepdims` row reduction read at an index given by coordinates — the column forms beside the
  library's row forms: a vector `[a]` cast to the column `[a, 1]`, a column `[a, 1]` broadcast along a new minor
  extent to `[a, b]`, and a lane sum of an `[a, b]` array over its minor axis read at a row as the sum over that row
  (at the exact instance, into the zero accumulator). General in the extents; nothing here mentions a program.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(i, u)`, the operand at `i`, whatever the unit coordinate `u`:
    the two row-major positions are `i` and `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`: the unit axis reads `0`,
    the row axis is kept (also when `a = 1`, where the only row is row `0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance a float lane sum of an `[a, b]` array over its minor axis, into the zero accumulator, read at row
    `i` is the sum over the `b` entries of that row. (The accumulator's side condition is typed as a printed program
    carries it, an equation between the two zero words.) -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ d : Fin b, src (ix2 i d) :=
  (Ideal.multiReduction_add_single src 0x00000000#32 h hφ hacc (ix1 i)).trans
    (Finset.sum_congr rfl fun d _ => congrArg src (funext fun ax => Fin.ext (by
      match ax with
      | ⟨0, _⟩ => rfl
      | ⟨1, _⟩ => rfl)))

end Cert.LibKeepdims
-- ==== Proof.BodyValue.lean ====
/-
  The value the region's body stores, read at a lane of its one row, on the extended reals: three matrix products into
  zero accumulators (the aggregation x^T A over the thresholded adjacency slab, the root product with the bias folded in
  as one more contraction term, the neighbour product), their sum rectified, summed over the 1024 nodes and scaled by
  2^-10, and the classifier product of that pooled row.
-/
import proofs.«133347_g37177236914914_cont_8to1_b_461_15_alg».proof.Proof.KernelTerms
import proofs.«133347_g37177236914914_cont_8to1_b_461_15_alg».proof.Proof.Gen.KernelIdeal.Skeleton
import proofs.«133347_g37177236914914_cont_8to1_b_461_15_alg».proof.Proof.LibKeepdims
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.Terms

open Idealize.ShloMosaic Idealize.ShloMosaic.ValueIdx Cert.KernelIdeal Cert.KernelIdeal.Gen

/-! ### The aggregation product `[128, 1024] x [1024, 1024]` -/

private theorem agg_lhs_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
private theorem agg_lhs_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
private theorem agg_rhs_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
private theorem agg_rhs_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The aggregation product `[128, 1024] x [1024, 1024]`, into the zero accumulator, read at `(p, q)`: the sum over the contracted coordinate `k` of
    `l[p, k] * r[k, q]`. -/
private theorem agg_apply (l : FVec Ideal S128x1024 .bf16) (r : FVec Ideal S1024x1024 .bf16) (p : Fin 128) (q : Fin 1024) :
    matmul dot_S128x1024_S1024x1024_S128x1024_1_0_0_1_n_n none l r (constant (F := Ideal) S128x1024 .f32 0x00000000#32) (ix2 p q)
      = ∑ k : Fin 1024, l (ix2 p k) * r (ix2 k q) := by
  refine (Ideal.matmul_constant_zero_apply dot_S128x1024_S1024x1024_S128x1024_1_0_0_1_n_n none l r (ix2 p q)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p q) ((contrEquiv1 dot_S128x1024_S1024x1024_S128x1024_1_0_0_1_n_n 1024 rfl rfl).symm k) = ix2 p k := funext fun a => Fin.ext (by
    match a with
    | ⟨0, _⟩ => exact agg_lhs_0 _ _
    | ⟨1, _⟩ => exact (agg_lhs_1 _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q := funext fun a => Fin.ext (by
    match a with
    | ⟨0, _⟩ => exact (agg_rhs_0 _ _).trans hk
    | ⟨1, _⟩ => exact agg_rhs_1 _ _)
  rw [el, er]

/-! ### The root product `[128, 136] x [136, 1024]` -/

private theorem root_lhs_0 (i : S128x1024.Idx) (q : dot_S128x136_S136x1024_S128x1024_1_0_0_1_n_n.contr.Idx) :
    (dot_S128x136_S136x1024_S128x1024_1_0_0_1_n_n.lhsIdx i q 0).val = (i 0).val := by
  unfold DotDims.lhsIdx
  rw [dif_neg (show ¬(0 : Fin S128x136.rank) ∈ dot_S128x136_S136x1024_S128x1024_1_0_0_1_n_n.lhsBatch by decide), dif_pos (show (0 : Fin S128x136.rank) ∈ dot_S128x136_S136x1024_S128x1024_1_0_0_1_n_n.lhsNonContracting by decide)]
  rfl
private theorem root_lhs_1 (i : S128x1024.Idx) (q : dot_S128x136_S136x1024_S128x1024_1_0_0_1_n_n.contr.Idx) :
    (dot_S128x136_S136x1024_S128x1024_1_0_0_1_n_n.lhsIdx i q 1).val = (q ⟨0, by decide⟩).val :=
  dot_S128x136_S136x1024_S128x1024_1_0_0_1_n_n.lhsIdx_val_of_single rfl i q
private theorem root_rhs_0 (i : S128x1024.Idx) (q : dot_S128x136_S136x1024_S128x1024_1_0_0_1_n_n.contr.Idx) :
    (dot_S128x136_S136x1024_S128x1024_1_0_0_1_n_n.rhsIdx i q 0).val = (q ⟨0, by decide⟩).val :=
  dot_S128x136_S136x1024_S128x1024_1_0_0_1_n_n.rhsIdx_val_of_single rfl i q
private theorem root_rhs_1 (i : S128x1024.Idx) (q : dot_S128x136_S136x1024_S128x1024_1_0_0_1_n_n.contr.Idx) :
    (dot_S128x136_S136x1024_S128x1024_1_0_0_1_n_n.rhsIdx i q 1).val = (i 1).val := by
  unfold DotDims.rhsIdx
  rw [dif_neg (show ¬(1 : Fin S136x1024.rank) ∈ dot_S128x136_S136x1024_S128x1024_1_0_0_1_n_n.rhsBatch by decide), dif_pos (show (1 : Fin S136x1024.rank) ∈ dot_S128x136_S136x1024_S128x1024_1_0_0_1_n_n.rhsNonContracting by decide)]
  rfl

/-- The root product `[128, 136] x [136, 1024]`, into the zero accumulator, read at `(p, q)`: the sum over the contracted coordinate `k` of
    `l[p, k] * r[k, q]`. -/
private theorem root_apply (l : FVec Ideal S128x136 .bf16) (r : FVec Ideal S136x1024 .bf16) (p : Fin 128) (q : Fin 1024) :
    matmul dot_S128x136_S136x1024_S128x1024_1_0_0_1_n_n none l r (constant (F := Ideal) S128x1024 .f32 0x00000000#32) (ix2 p q)
      = ∑ k : Fin 136, l (ix2 p k) * r (ix2 k q) := by
  refine (Ideal.matmul_constant_zero_apply dot_S128x136_S136x1024_S128x1024_1_0_0_1_n_n none l r (ix2 p q)).trans ?_
  rw [← Equiv.sum_comp (contrEquiv1 dot_S128x136_S136x1024_S128x1024_1_0_0_1_n_n 136 rfl rfl).symm]
  refine Finset.sum_congr rfl fun k _ => ?_
  have hk := contrEquiv1_symm_val dot_S128x136_S136x1024_S128x1024_1_0_0_1_n_n 136 rfl rfl k
  have el : dot_S128x136_S136x1024_S128x1024_1_0_0_1_n_n.lhsIdx (ix2 p q) ((contrEquiv1 dot_S128x136_S136x1024_S128x1024_1_0_0_1_n_n 136 rfl rfl).symm k) = ix2 p k := funext fun a => Fin.ext (by
    match a with
    | ⟨0, _⟩ => exact root_lhs_0 _ _
    | ⟨1, _⟩ => exact (root_lhs_1 _ _).trans hk)
  have er : dot_S128x136_S136x1024_S128x1024_1_0_0_1_n_n.rhsIdx (ix2 p q) ((contrEquiv1 dot_S128x136_S136x1024_S128x1024_1_0_0_1_n_n 136 rfl rfl).symm k) = ix2 k q := funext fun a => Fin.ext (by
    match a with
    | ⟨0, _⟩ => exact (root_rhs_0 _ _).trans hk
    | ⟨1, _⟩ => exact root_rhs_1 _ _)
  rw [el, er]

/-! ### The neighbour product `[128, 128] x [128, 1024]` -/

private theorem nbr_lhs_0 (i : S128x1024.Idx) (q : dot_S128x128_S128x1024_S128x1024_1_0_0_1_n_n.contr.Idx) :
    (dot_S128x128_S128x1024_S128x1024_1_0_0_1_n_n.lhsIdx i q 0).val = (i 0).val := by
  unfold DotDims.lhsIdx
  rw [dif_neg (show ¬(0 : Fin S128x128.rank) ∈ dot_S128x128_S128x1024_S128x1024_1_0_0_1_n_n.lhsBatch by decide), dif_pos (show (0 : Fin S128x128.rank) ∈ dot_S128x128_S128x1024_S128x1024_1_0_0_1_n_n.lhsNonContracting by decide)]
  rfl
private theorem nbr_lhs_1 (i : S128x1024.Idx) (q : dot_S128x128_S128x1024_S128x1024_1_0_0_1_n_n.contr.Idx) :
    (dot_S128x128_S128x1024_S128x1024_1_0_0_1_n_n.lhsIdx i q 1).val = (q ⟨0, by decide⟩).val :=
  dot_S128x128_S128x1024_S128x1024_1_0_0_1_n_n.lhsIdx_val_of_single rfl i q
private theorem nbr_rhs_0 (i : S128x1024.Idx) (q : dot_S128x128_S128x1024_S128x1024_1_0_0_1_n_n.contr.Idx) :
    (dot_S128x128_S128x1024_S128x1024_1_0_0_1_n_n.rhsIdx i q 0).val = (q ⟨0, by decide⟩).val :=
  dot_S128x128_S128x1024_S128x1024_1_0_0_1_n_n.rhsIdx_val_of_single rfl i q
private theorem nbr_rhs_1 (i : S128x1024.Idx) (q : dot_S128x128_S128x1024_S128x1024_1_0_0_1_n_n.contr.Idx) :
    (dot_S128x128_S128x1024_S128x1024_1_0_0_1_n_n.rhsIdx i q 1).val = (i 1).val := by
  unfold DotDims.rhsIdx
  rw [dif_neg (show ¬(1 : Fin S128x1024.rank) ∈ dot_S128x128_S128x1024_S128x1024_1_0_0_1_n_n.rhsBatch by decide), dif_pos (show (1 : Fin S128x1024.rank) ∈ dot_S128x128_S128x1024_S128x1024_1_0_0_1_n_n.rhsNonContracting by decide)]
  rfl

/-- The neighbour product `[128, 128] x [128, 1024]`, into the zero accumulator, read at `(p, q)`: the sum over the contracted coordinate `k` of
    `l[p, k] * r[k, q]`. -/
private theorem nbr_apply (l : FVec Ideal S128x128 .bf16) (r : FVec Ideal S128x1024 .bf16) (p : Fin 128) (q : Fin 1024) :
    matmul dot_S128x128_S128x1024_S128x1024_1_0_0_1_n_n none l r (constant (F := Ideal) S128x1024 .f32 0x00000000#32) (ix2 p q)
      = ∑ k : Fin 128, l (ix2 p k) * r (ix2 k q) := by
  refine (Ideal.matmul_constant_zero_apply dot_S128x128_S128x1024_S128x1024_1_0_0_1_n_n none l r (ix2 p q)).trans ?_
  rw [← Equiv.sum_comp (contrEquiv1 dot_S128x128_S128x1024_S128x1024_1_0_0_1_n_n 128 rfl rfl).symm]
  refine Finset.sum_congr rfl fun k _ => ?_
  have hk := contrEquiv1_symm_val dot_S128x128_S128x1024_S128x1024_1_0_0_1_n_n 128 rfl rfl k
  have el : dot_S128x128_S128x1024_S128x1024_1_0_0_1_n_n.lhsIdx (ix2 p q) ((contrEquiv1 dot_S128x128_S128x1024_S128x1024_1_0_0_1_n_n 128 rfl rfl).symm k) = ix2 p k := funext fun a => Fin.ext (by
    match a with
    | ⟨0, _⟩ => exact nbr_lhs_0 _ _
    | ⟨1, _⟩ => exact (nbr_lhs_1 _ _).trans hk)
  have er : dot_S128x128_S128x1024_S128x1024_1_0_0_1_n_n.rhsIdx (ix2 p q) ((contrEquiv1 dot_S128x128_S128x1024_S128x1024_1_0_0_1_n_n 128 rfl rfl).symm k) = ix2 k q := funext fun a => Fin.ext (by
    match a with
    | ⟨0, _⟩ => exact (nbr_rhs_0 _ _).trans hk
    | ⟨1, _⟩ => exact nbr_rhs_1 _ _)
  rw [el, er]

/-! ### The classifier product `[1, 128] x [128, 128]` -/

private theorem cls_lhs_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
private theorem cls_lhs_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
private theorem cls_rhs_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
private theorem cls_rhs_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

/-- The classifier product `[1, 128] x [128, 128]`, into the zero accumulator, read at `(p, q)`: the sum over the contracted coordinate `k` of
    `l[p, k] * r[k, q]`. -/
private theorem cls_apply (l : FVec Ideal S1x128 .f32) (r : FVec Ideal S128x128 .f32) (p : Fin 1) (q : Fin 128) :
    matmul dot_S1x128_S128x128_S1x128_1_0_0_1_n_n none l r (constant (F := Ideal) S1x128 .f32 0x00000000#32) (ix2 p q)
      = ∑ k : Fin 128, l (ix2 p k) * r (ix2 k q) := by
  refine (Ideal.matmul_constant_zero_apply dot_S1x128_S128x128_S1x128_1_0_0_1_n_n none l r (ix2 p q)).trans ?_
  rw [← Equiv.sum_comp (contrEquiv1 dot_S1x128_S128x128_S1x128_1_0_0_1_n_n 128 rfl rfl).symm]
  refine Finset.sum_congr rfl fun k _ => ?_
  have hk := contrEquiv1_symm_val dot_S1x128_S128x128_S1x128_1_0_0_1_n_n 128 rfl rfl k
  have el : dot_S1x128_S128x128_S1x128_1_0_0_1_n_n.lhsIdx (ix2 p q) ((contrEquiv1 dot_S1x128_S128x128_S1x128_1_0_0_1_n_n 128 rfl rfl).symm k) = ix2 p k := funext fun a => Fin.ext (by
    match a with
    | ⟨0, _⟩ => exact cls_lhs_0 _ _
    | ⟨1, _⟩ => exact (cls_lhs_1 _ _).trans hk)
  have er : dot_S1x128_S128x128_S1x128_1_0_0_1_n_n.rhsIdx (ix2 p q) ((contrEquiv1 dot_S1x128_S128x128_S1x128_1_0_0_1_n_n 128 rfl rfl).symm k) = ix2 k q := funext fun a => Fin.ext (by
    match a with
    | ⟨0, _⟩ => exact (cls_rhs_0 _ _).trans hk
    | ⟨1, _⟩ => exact cls_rhs_1 _ _)
  rw [el, er]

/-- The stored row at lane `c`, from the blocks the body loads. -/
theorem pay_apply (a : FVec Ideal S1x1024x1024 .f32) (xt : FVec Ideal S1x136x1024 .bf16) (wr : FVec Ideal S128x136 .bf16)
    (wn : FVec Ideal S128x128 .bf16) (wc : FVec Ideal S128x128 .f32) (c : Fin 128) :
    k0_pay1 (F := Ideal) a xt wr wn wc (ix3 (0 : Fin 1) (0 : Fin 1) c) = blockLogit a xt wr wn wc c := by
  unfold k0_pay1
  -- the stored value is the classifier product's one row with a leading unit axis added
  refine (shapeCast_ab_1ab_apply _ _ (0 : Fin 1) (0 : Fin 1) c).trans ?_
  -- the classifier product: a sum over the hidden coordinate h
  refine (cls_apply _ _ (0 : Fin 1) c).trans ?_
  unfold blockLogit
  refine Finset.sum_congr rfl fun h _ => ?_
  refine congrArg₂ (· * ·) ?_ ?_
  · -- the pooled row is the pooled column transposed: entry (0, h) is the column's entry (h, 0)
    refine (transpose_ix2_apply _ _ (0 : Fin 1) h).trans ?_
    -- the column is the lane sums times the constant 2^-10
    refine (mulf_apply _ _ _).trans ?_
    refine congrArg₂ (· * ·) ?_ rfl
    -- the lane sums, cast from [128] to the column [128, 1]
    refine (Cert.LibKeepdims.shapeCast_a_a1_apply _ _ h (0 : Fin 1)).trans ?_
    -- the sum over the 1024 nodes of row h
    refine (Cert.LibKeepdims.rowSum_apply _ _ _ _ h).trans ?_
    refine Finset.sum_congr rfl fun n _ => ?_
    -- rectified: the maximum with the constant zero
    refine (maximumf_apply _ _ _).trans ?_
    refine congrArg₂ max ?_ rfl
    refine (addf_apply _ _ _).trans ?_
    refine congrArg₂ (· + ·) ?_ ?_
    · -- the root product, over the 136 augmented feature coordinates
      refine (root_apply _ _ h n).trans ?_
      refine Finset.sum_congr rfl fun k _ => ?_
      refine congrArg₂ (· * ·) ?_ ?_
      · exact congrFun (shapeCast_self wr _) (ix2 h k)
      · exact shapeCast_1ab_ab_apply xt _ k n
    · -- the neighbour product, over the 128 feature coordinates
      refine (nbr_apply _ _ h n).trans ?_
      refine Finset.sum_congr rfl fun d _ => ?_
      refine congrArg₂ (· * ·) ?_ ?_
      · exact congrFun (shapeCast_self wn _) (ix2 h d)
      · -- the aggregation product (its format change is the identity), over the 1024 source nodes
        refine (truncf_apply (φ := .f32) (ψ := .bf16) _ _ _).trans ?_
        refine (agg_apply _ _ d n).trans ?_
        refine Finset.sum_congr rfl fun i _ => ?_
        refine congrArg₂ (· * ·) ?_ ?_
        · -- the first 128 of the 136 feature rows: row d of the slice is row d of the source
          refine (slice2_axis0_apply 0 _ _ d i (⟨d.val, by omega⟩ : Fin 136) (Nat.zero_add _).symm).trans ?_
          exact shapeCast_1ab_ab_apply xt _ _ i
        · -- the thresholded adjacency: the one-bit mask widened and converted signed is the mask converted unsigned
          refine (truncf_apply (φ := .f32) (ψ := .bf16) _ _ _).trans ?_
          refine (congrFun (sitofp_extui_eq_uitofp (φ := .f32) (cmpf .ogt _ _) _) (ix2 i n)).trans ?_
          refine congrArg (FloatOps.uitofp (F := Ideal) .f32) ?_
          refine congrArg₂ (FloatOps.cmpf (F := Ideal) .ogt) ?_ rfl
          exact shapeCast_1ab_ab_apply a _ i n
  · -- the classifier block: a cast to its own shape is the identity
    exact congrFun (shapeCast_self wc _) (ix2 h c)

end Cert.KernelIdeal.Terms

end
-- ==== Proof.KernelValue.lean ====
/-
  The kernel program's run, read: its result array as a function of the seven argument arrays.
  Grid point t stages graph t's adjacency slab and augmented transposed features (block index t on the leading axis) and
  the three weight arrays whole (block index 0), and writes back row t of the [16, 1, 128] output. What it writes is the
  body's stored value of those blocks, which at lane c is the block function; so row t of the output array ends at the
  region function of the five operand arrays as the region finds them, and the 16 rows cover the array. The operands are
  the host operations' terms of the arguments, and the operations after the region take the first ten lanes of each row
  and add the padded bias.
-/
import proofs.«133347_g37177236914914_cont_8to1_b_461_15_alg».proof.Proof.KernelIdealRegion
import proofs.«133347_g37177236914914_cont_8to1_b_461_15_alg».proof.Proof.KernelTerms
import proofs.«133347_g37177236914914_cont_8to1_b_461_15_alg».proof.Proof.RegionOut
import proofs.«133347_g37177236914914_cont_8to1_b_461_15_alg».proof.Proof.BodyValue
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Region Cert.KernelIdeal.Terms

variable (m : (ℓ : Loc nD τ sig) → Buf (Elt Ideal) ℓ) (ρ : Dev nD → PrngReg)

/-! ## The operand arrays as the region finds them, each by its literal type -/

abbrev aAdj (c : Dev nD) : FVec Ideal S16x1024x1024 .f32 := V m c main_arg1
abbrev aFeat (c : Dev nD) : FVec Ideal S16x136x1024 .bf16 := V m c main_v4
abbrev aRoot (c : Dev nD) : FVec Ideal S128x136 .bf16 := V m c main_v9
abbrev aNbr (c : Dev nD) : FVec Ideal S128x128 .bf16 := V m c main_v11
abbrev aCls (c : Dev nD) : FVec Ideal S128x128 .f32 := V m c main_v14
abbrev aBias (c : Dev nD) : FVec Ideal S128 .f32 := V m c main_v17

/-- The adjacency is an argument: as launched. -/
theorem aAdj_eq (c : Dev nD) : aAdj m c = m ((c : Thread nD τ).loc main_arg1) := V_main_arg1 m c

/-- The other five are the host operations' terms of the arguments. -/
theorem aFeat_eq (c : Dev nD) : aFeat m c = featT (F := Ideal) (m ((c : Thread nD τ).loc main_arg0)) := by
  show StableHlo.after hostOps0 (fun b => m (c, b)) (Proc.devRef .tc main_v4) = _
  after_results
  rfl
theorem aRoot_eq (c : Dev nD) : aRoot m c = rootT (F := Ideal) (m ((c : Thread nD τ).loc main_arg2)) (m ((c : Thread nD τ).loc main_arg4)) := by
  show StableHlo.after hostOps0 (fun b => m (c, b)) (Proc.devRef .tc main_v9) = _
  after_results
  rfl
theorem aNbr_eq (c : Dev nD) : aNbr m c = nbrT (F := Ideal) (m ((c : Thread nD τ).loc main_arg3)) := by
  show StableHlo.after hostOps0 (fun b => m (c, b)) (Proc.devRef .tc main_v11) = _
  after_results
  rfl
theorem aCls_eq (c : Dev nD) : aCls m c = clsPad (F := Ideal) (m ((c : Thread nD τ).loc main_arg5)) := by
  show StableHlo.after hostOps0 (fun b => m (c, b)) (Proc.devRef .tc main_v14) = _
  after_results
  rfl
theorem aBias_eq (c : Dev nD) : aBias m c = biasPad (F := Ideal) (m ((c : Thread nD τ).loc main_arg6)) := by
  show StableHlo.after hostOps0 (fun b => m (c, b)) (Proc.devRef .tc main_v17) = _
  after_results
  rfl

/-! ## The blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 16 points: the two batched inputs and the output move with the point on
    their leading axis; the three weight arrays stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- A point as a graph. -/
def graphOf (t : Fin cfg0.N) : Fin 16 := ⟨t.val, by have h : t.val < grid0.N := t.isLt; rw [N_0] at h; exact h⟩

/-- Point t's adjacency block is graph t's slab. -/
theorem blk_adj (c : Dev nD) (t : Fin cfg0.N) : (iblk m c 0 t : FVec Ideal S1x1024x1024 .f32) = slab (aAdj m c) (graphOf t) := by
  obtain ⟨e0, e1, e2, -⟩ := idx_facts t
  funext y
  show V m c main_arg1 (((cfg0.win 0).blk t).view.emb y) = V m c main_arg1 (ix3 (graphOf t) (y 1) (y 2))
  refine congrArg _ (funext fun a => Fin.ext ?_)
  match a with
  | ⟨0, _⟩ => show win0_0.index t (0 : Fin 3) * 1 + 1 * (y 0).val = t.val; have hy : (y 0).val < 1 := (y 0).isLt; omega
  | ⟨1, _⟩ => show win0_0.index t (1 : Fin 3) * 1024 + 1 * (y 1).val = (y 1).val; omega
  | ⟨2, _⟩ => show win0_0.index t (2 : Fin 3) * 1024 + 1 * (y 2).val = (y 2).val; omega

/-- Point t's feature block is graph t's slab. -/
theorem blk_feat (c : Dev nD) (t : Fin cfg0.N) : (iblk m c 1 t : FVec Ideal S1x136x1024 .bf16) = slab (aFeat m c) (graphOf t) := by
  obtain ⟨-, -, -, e0, e1, e2, -⟩ := idx_facts t
  funext y
  show V m c main_v4 (((cfg0.win 1).blk t).view.emb y) = V m c main_v4 (ix3 (graphOf t) (y 1) (y 2))
  refine congrArg _ (funext fun a => Fin.ext ?_)
  match a with
  | ⟨0, _⟩ => show win0_1.index t (0 : Fin 3) * 1 + 1 * (y 0).val = t.val; have hy : (y 0).val < 1 := (y 0).isLt; omega
  | ⟨1, _⟩ => show win0_1.index t (1 : Fin 3) * 136 + 1 * (y 1).val = (y 1).val; omega
  | ⟨2, _⟩ => show win0_1.index t (2 : Fin 3) * 1024 + 1 * (y 2).val = (y 2).val; omega

/-- Every point's block of a weight array is the whole array. -/
theorem blk_root (c : Dev nD) (t : Fin cfg0.N) : (iblk m c 2 t : FVec Ideal S128x136 .bf16) = aRoot m c := by
  obtain ⟨-, -, -, -, -, -, e0, e1, -⟩ := idx_facts t
  funext y
  show V m c main_v9 (((cfg0.win 2).blk t).view.emb y) = V m c main_v9 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 136 + 1 * (y 1).val = (y 1).val; omega
theorem blk_nbr (c : Dev nD) (t : Fin cfg0.N) : (iblk m c 3 t : FVec Ideal S128x128 .bf16) = aNbr m c := by
  obtain ⟨-, -, -, -, -, -, -, -, e0, e1, -⟩ := idx_facts t
  funext y
  show V m c main_v11 (((cfg0.win 3).blk t).view.emb y) = V m c main_v11 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem blk_cls (c : Dev nD) (t : Fin cfg0.N) : (iblk m c 4 t : FVec Ideal S128x128 .f32) = aCls m c := by
  obtain ⟨-, -, -, -, -, -, -, -, -, -, e0, e1, -⟩ := idx_facts t
  funext y
  show V m c main_v14 (((cfg0.win 4).blk t).view.emb y) = V m c main_v14 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-! ## What a point writes back -/

/-- The stored row, read at an index of its [1, 1, 128] block, from blocks that are graph g's slabs and the weight
    arrays: the region function at row g, lane as in the block. Stated over variables of the literal types. -/
theorem row_eq (a : FVec Ideal S1x1024x1024 .f32) (xt : FVec Ideal S1x136x1024 .bf16) (wr : FVec Ideal S128x136 .bf16)
    (wn : FVec Ideal S128x128 .bf16) (wc : FVec Ideal S128x128 .f32)
    (A : FVec Ideal S16x1024x1024 .f32) (X : FVec Ideal S16x136x1024 .bf16) (WR : FVec Ideal S128x136 .bf16)
    (WN : FVec Ideal S128x128 .bf16) (WC : FVec Ideal S128x128 .f32) (g : Fin 16)
    (ha : a = slab A g) (hx : xt = slab X g) (hr : wr = WR) (hn : wn = WN) (hc : wc = WC) (y : S1x1x128.Idx) :
    k0_pay1 (F := Ideal) a xt wr wn wc y = regionOut A X WR WN WC (ix3 g (0 : Fin 1) (y 2)) := by
  subst ha hx hr hn hc
  -- the block's index is (0, 0, lane): name the lane by a coordinate of literal extent
  have h0 : (y 0).val < 1 := (y 0).isLt
  have h1 : (y 1).val < 1 := (y 1).isLt
  have h2 : (y 2).val < 128 := (y 2).isLt
  have hy : y = ix3 (0 : Fin 1) (0 : Fin 1) (⟨(y 2).val, h2⟩ : Fin 128) := by
    funext d
    match d with
    | ⟨0, _⟩ => exact Fin.ext (by show (y 0).val = 0; omega)
    | ⟨1, _⟩ => exact Fin.ext (by show (y 1).val = 0; omega)
    | ⟨2, _⟩ => rfl
  exact (congrArg (k0_pay1 (F := Ideal) (slab A g) (slab X g) wr wn wc) hy).trans
    ((pay_apply (slab A g) (slab X g) wr wn wc (⟨(y 2).val, h2⟩ : Fin 128)).trans rfl)

/-- What point t writes back is block t of the region function of the operand arrays. -/
theorem flushed_eq (c : Dev nD) (t : Fin cfg0.N) :
    (dats m 0 c).flushed 5 t
      = ((cfg0.win 5).blk t).view.read (Elt Ideal) (regionOut (aAdj m c) (aFeat m c) (aRoot m c) (aNbr m c) (aCls m c)) := by
  show (cfg0.win 5).cut (grid0.coords t) ((dats m 0 c).after 5 t) = _
  rw [after5]
  unfold outRow
  rw [View.canon_unit_zero hz3]
  simp only [View.ld_unit_zero (S := S1x1024x1024) hz3, View.ld_unit_zero (S := S1x136x1024) hz3,
    View.ld_unit_zero (S := S128x136) hz2, View.ld_unit_zero (S := S128x128) hz2]
  obtain ⟨-, -, -, -, -, -, -, -, -, -, -, -, e0, e1, e2⟩ := idx_facts t
  funext j
  refine (row_eq (iblk m c 0 t) (iblk m c 1 t) (iblk m c 2 t) (iblk m c 3 t) (iblk m c 4 t)
    (aAdj m c) (aFeat m c) (aRoot m c) (aNbr m c) (aCls m c) (graphOf t)
    (blk_adj m c t) (blk_feat m c t) (blk_root m c t) (blk_nbr m c t) (blk_cls m c t) j).trans ?_
  show regionOut (aAdj m c) (aFeat m c) (aRoot m c) (aNbr m c) (aCls m c) (ix3 (graphOf t) (0 : Fin 1) (j 2))
    = regionOut (aAdj m c) (aFeat m c) (aRoot m c) (aNbr m c) (aCls m c) (((cfg0.win 5).blk t).view.emb j)
  refine congrArg _ (funext fun a => Fin.ext ?_)
  match a with
  | ⟨0, _⟩ => show t.val = win0_5.index t (0 : Fin 3) * 1 + 1 * (j 0).val; have hj : (j 0).val < 1 := (j 0).isLt; omega
  | ⟨1, _⟩ => show (0 : ℕ) = win0_5.index t (1 : Fin 3) * 1 + 1 * (j 1).val; have hj : (j 1).val < 1 := (j 1).isLt; omega
  | ⟨2, _⟩ => show (j 2).val = win0_5.index t (2 : Fin 3) * 128 + 1 * (j 2).val; omega

/-- The 16 rows cover the output array, so it ends at the region function of the operand arrays. -/
theorem out_array (c : Dev nD) :
    (dats m 0 c).arrAt 5 cfg0.N = regionOut (aAdj m c) (aFeat m c) (aRoot m c) (aNbr m c) (aCls m c) :=
  (dats m 0 c).arrAt_eq_of_cover 5 (regionOut (aAdj m c) (aFeat m c) (aRoot m c) (aNbr m c) (aCls m c))
    (fun t _ => flushed_eq m c t) fun i => by
      have hi0 : (i 0).val < 16 := (i 0).isLt
      have hi1 : (i 1).val < 1 := (i 1).isLt
      have hi2 : (i 2).val < 128 := (i 2).isLt
      have hN : (i 0).val < cfg0.N := by show (i 0).val < grid0.N; rw [N_0]; exact hi0
      obtain ⟨-, -, -, -, -, -, -, -, -, -, -, -, e0', e1, e2⟩ := idx_facts ⟨(i 0).val, hN⟩
      have e0 : win0_5.index ⟨(i 0).val, hN⟩ (0 : Fin 3) = (i 0).val := e0'
      refine ⟨⟨(i 0).val, hN⟩, flush0_5 _, ?_⟩
      show i ∈ ((View.whole main_v18).slice (win0_5.rect ⟨(i 0).val, hN⟩)).set
      rw [View.set_slice_whole, Rect.mem_set_unit]
      intro a
      match a with
      | ⟨0, _⟩ =>
        show win0_5.index ⟨(i 0).val, hN⟩ (0 : Fin 3) * 1 ≤ (i 0).val ∧ (i 0).val < win0_5.index ⟨(i 0).val, hN⟩ (0 : Fin 3) * 1 + 1
        rw [e0]; omega
      | ⟨1, _⟩ =>
        show win0_5.index ⟨(i 0).val, hN⟩ (1 : Fin 3) * 1 ≤ (i 1).val ∧ (i 1).val < win0_5.index ⟨(i 0).val, hN⟩ (1 : Fin 3) * 1 + 1
        rw [e1]; omega
      | ⟨2, _⟩ =>
        show win0_5.index ⟨(i 0).val, hN⟩ (2 : Fin 3) * 128 ≤ (i 2).val ∧ (i 2).val < win0_5.index ⟨(i 0).val, hN⟩ (2 : Fin 3) * 128 + 128
        rw [e2]; omega

/-! ## The operations after the region, and the run -/

/-- The result array after the operations that follow the region: the tail of the region's output array and of the padded
    bias as the region found it (no later operation and no window writes the padded bias). -/
theorem result_eq (c : Dev nD) :
    Pipeline.afterTail₀ cfgs (dats m) 0 (V0 m) [hostOps1] c main_v24
      = tail (F := Ideal) ((dats m 0 c).arrAt 5 cfg0.N) (aBias m c) := by
  unfold Pipeline.afterTail₀
  show StableHlo.after hostOps1 _ (Proc.devRef .tc main_v24) = _
  after_results
  rw [Pipeline.withArrays_arr spec0 launch0.win.arr_inj c _ _ 5,
    Pipeline.withArrays_of_ne _ c (V0 m c) _ main_v17 (by exact (by decide : ∀ w, Pipeline.arrRef spec0 w ≠ main_v17))]
  rfl

/-- The run, read: the result at the tail of the region function of the host-built operands of the arguments, plus the
    padded bias; the seven arguments unchanged. -/
theorem run : θ_run defs (onTc (τ := τ) (main (F := Ideal))) ⟨m, fun _ => 0, ρ⟩ fun r => ∀ c : Dev nD,
      r.2.mem ((c.tc : Thread nD τ).loc main_v24)
        = tail (F := Ideal)
            (regionOut (m ((c.tc : Thread nD τ).loc main_arg1)) (featT (F := Ideal) (m ((c.tc : Thread nD τ).loc main_arg0)))
              (rootT (F := Ideal) (m ((c.tc : Thread nD τ).loc main_arg2)) (m ((c.tc : Thread nD τ).loc main_arg4)))
              (nbrT (F := Ideal) (m ((c.tc : Thread nD τ).loc main_arg3))) (clsPad (F := Ideal) (m ((c.tc : Thread nD τ).loc main_arg5))))
            (biasPad (F := Ideal) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨by
      refine (((h c).2 main_v24 (Pipeline.mem_restRefs_of main_v24 (by decide) (by decide))).trans (result_eq m c)).trans ?_
      rw [out_array, aAdj_eq, aFeat_eq, aRoot_eq, aNbr_eq, aCls_eq, aBias_eq],
      (((h c).2 main_arg0 (Pipeline.mem_restRefs_of main_arg0 (by decide) (by decide))).trans (W_main_arg0 m (dats m) c)),
      ((h c).1 0).trans ((((dats m) 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Result

end
-- ==== Proof.Consts.lean ====
/-
  The float constants the two programs spell, as the extended reals their bit patterns denote at the exact
  instance: 0, 1, 1024 = 2^10 and 1/1024 = 2^-10. The last two are exact powers of two, so the kernel's product
  with 2^-10 and the reference's quotient by 2^10 are one function on every extended real.
-/
import Idealize.ShloMosaic.PureOps.Ideal
import Idealize.ShloMosaic.PureOps.Ideal.Laws

noncomputable section

namespace Cert.Consts

open Idealize.ShloMosaic

/-- The word of `+0.0` denotes 0. -/
theorem ofBits_zero : Ideal.ofBits .f32 0x00000000#32 = 0 := Ideal.ofBits_zero_f32

/-- The word of `1.0` denotes 1. -/
theorem ofBits_one : Ideal.ofBits .f32 0x3F800000#32 = 1 := by
  simp [Ideal.ofBits, Ideal.ieee, -EReal.coe_mul]; norm_num

/-- The word of `1024.0` denotes the real 1024. -/
theorem ofBits_1024 : Ideal.ofBits .f32 0x44800000#32 = ((1024 : ℝ) : EReal) := by
  simp [Ideal.ofBits, Ideal.ieee, -EReal.coe_mul]; norm_num

/-- The word of `9.765625e-4` denotes the real 1/1024 exactly: it is the power of two 2^-10. -/
theorem ofBits_inv_1024 : Ideal.ofBits .f32 0x3A800000#32 = ((1 / 1024 : ℝ) : EReal) := by
  simp [Ideal.ofBits, Ideal.ieee, -EReal.coe_mul]; norm_num

/-- Dividing by 1024 is multiplying by 2^-10, on every extended real (the infinities included). -/
theorem div_1024 (x : EReal) :
    Ideal.div x (Ideal.ofBits .f32 0x44800000#32) = x * Ideal.ofBits .f32 0x3A800000#32 := by
  rw [ofBits_1024, ofBits_inv_1024]
  exact Ideal.div_coe (by norm_num : (1024 : ℝ) ≠ 0) x

end Cert.Consts

end
-- ==== Proof.OperandsConcat.lean ====
/-
  The three arrays the kernel program builds by transposing and concatenating, read at an index, on the extended
  reals (where rounding to bf16 is the identity): the augmented transposed features hold x[g, n, d] at (g, d, n) for
  d < 128, 1 in row 128 and 0 in rows 129 to 135; the augmented transposed root weights hold Wr[d, h] at (h, d) for
  d < 128, b[h] in column 128 and 0 in columns 129 to 135; the transposed neighbour weights hold Wn[d, h] at (h, d).
-/
import proofs.«133347_g37177236914914_cont_8to1_b_461_15_alg».proof.Proof.KernelTerms
import proofs.«133347_g37177236914914_cont_8to1_b_461_15_alg».proof.Proof.Consts
import Idealize.ShloMosaic.Lib.Pipeline.Value
import Idealize.ShloMosaic.Lib.ValueLayout

noncomputable section

namespace Cert.KernelIdeal.Terms

open Idealize.ShloMosaic Idealize.ShloMosaic.ValueIdx Cert.KernelIdeal Cert.KernelIdeal.Gen

/-- The three pieces of the augmented transposed features, in order along the feature axis. -/
private abbrev featPieces (x : FVec Ideal S16x1024x128 .f32) : List ((s : Shape) × (s.Idx → Ideal .f32)) :=
  [⟨S16x128x1024, transpose S16x128x1024 [0, 2, 1] x transposes_S16x1024x128_S16x128x1024_0_2_1⟩,
   ⟨S16x1x1024, broadcastInDim S16x1x1024 ![] bcast_S_S16x1x1024 (constant (F := Ideal) S_ .f32 0x3F800000#32)⟩,
   ⟨S16x7x1024, broadcastInDim S16x7x1024 ![] bcast_S_S16x7x1024 (constant (F := Ideal) S_ .f32 0x00000000#32)⟩]

/-- On the extended reals rounding is the identity, so the augmented features are the concatenation itself. -/
private theorem featT_eq (x : FVec Ideal S16x1024x128 .f32) (j : S16x136x1024.Idx) :
    featT (F := Ideal) x j
      = concatenate S16x136x1024 1 (featPieces x) concatenates_S16x128x1024_S16x1x1024_S16x7x1024_S16x136x1024_d1 j := rfl

/-- The three pieces of the augmented transposed root weights, in order along the feature axis. -/
private abbrev rootPieces (Wr : FVec Ideal S128x128 .f32) (b : FVec Ideal S128 .f32) : List ((s : Shape) × (s.Idx → Ideal .f32)) :=
  [⟨S128x128, transpose S128x128 [1, 0] Wr transposes_S128x128_S128x128_1_0⟩,
   ⟨S128x1, broadcastInDim S128x1 ![0] bcast_S128_S128x1_0 b⟩,
   ⟨S128x7, broadcastInDim S128x7 ![] bcast_S_S128x7 (constant (F := Ideal) S_ .f32 0x00000000#32)⟩]

/-- On the extended reals rounding is the identity, so the augmented root weights are the concatenation itself. -/
private theorem rootT_eq (Wr : FVec Ideal S128x128 .f32) (b : FVec Ideal S128 .f32) (j : S128x136.Idx) :
    rootT (F := Ideal) Wr b j
      = concatenate S128x136 1 (rootPieces Wr b) concatenates_S128x128_S128x1_S128x7_S128x136_d1 j := rfl

theorem featT_feature (x : FVec Ideal S16x1024x128 .f32) (g : Fin 16) (d : Fin 128) (n : Fin 1024) :
    featT (F := Ideal) x (ix3 g (⟨d.val, by omega⟩ : Fin 136) n) = x (ix3 g n d) := by
  -- rows 0 to 127 of the feature axis lie in the first piece, the transposed features
  refine (featT_eq x _).trans ?_
  refine Eq.trans (concatenate_apply_piece (t := S16x136x1024) 1 (featPieces x) _ _
    0 (Nat.zero_lt_succ _) S16x128x1024 _ rfl rfl 0 rfl (ix3 g d n) ?_ (Nat.zero_add _)) ?_
  · intro b _
    match b with
    | ⟨0, _⟩ => rfl
    | ⟨1, _⟩ => rfl
    | ⟨2, _⟩ => rfl
  · exact transpose_ix3_021_apply x _ g d n

theorem featT_one (x : FVec Ideal S16x1024x128 .f32) (g : Fin 16) (n : Fin 1024) :
    featT (F := Ideal) x (ix3 g (⟨128, by omega⟩ : Fin 136) n) = 1 := by
  -- row 128 is the second piece, a broadcast of the constant 1
  refine (featT_eq x _).trans ?_
  refine Eq.trans (concatenate_apply_piece (t := S16x136x1024) 1 (featPieces x) _ _
    1 (Nat.succ_lt_succ (Nat.zero_lt_succ _)) S16x1x1024 _ rfl rfl 128 rfl (ix3 g (0 : Fin 1) n) ?_ rfl) ?_
  · intro b hb
    match b, hb with
    | ⟨0, _⟩, _ => rfl
    | ⟨1, _⟩, hb => exact absurd rfl hb
    | ⟨2, _⟩, _ => rfl
  · exact Cert.Consts.ofBits_one

theorem featT_pad (x : FVec Ideal S16x1024x128 .f32) (g : Fin 16) (k : Fin 136) (hk : 129 ≤ k.val) (n : Fin 1024) :
    featT (F := Ideal) x (ix3 g k n) = 0 := by
  -- rows 129 to 135 are the third piece, a broadcast of the constant 0
  refine (featT_eq x _).trans ?_
  refine Eq.trans (concatenate_apply_piece (t := S16x136x1024) 1 (featPieces x) _ _
    2 (Nat.succ_lt_succ (Nat.succ_lt_succ (Nat.zero_lt_succ _))) S16x7x1024 _ rfl rfl 129 rfl
    (ix3 g (⟨k.val - 129, by omega⟩ : Fin 7) n) ?_ ?_) ?_
  · intro b hb
    match b, hb with
    | ⟨0, _⟩, _ => rfl
    | ⟨1, _⟩, hb => exact absurd rfl hb
    | ⟨2, _⟩, _ => rfl
  · show 129 + (k.val - 129) = k.val
    omega
  · exact Cert.Consts.ofBits_zero

theorem rootT_weight (Wr : FVec Ideal S128x128 .f32) (b : FVec Ideal S128 .f32) (h d : Fin 128) :
    rootT (F := Ideal) Wr b (ix2 h (⟨d.val, by omega⟩ : Fin 136)) = Wr (ix2 d h) := by
  -- columns 0 to 127 lie in the first piece, the transposed root weights
  refine (rootT_eq Wr b _).trans ?_
  refine Eq.trans (concatenate_apply_piece (t := S128x136) 1 (rootPieces Wr b) _ _
    0 (Nat.zero_lt_succ _) S128x128 _ rfl rfl 0 rfl (ix2 h d) ?_ (Nat.zero_add _)) ?_
  · intro c _
    match c with
    | ⟨0, _⟩ => rfl
    | ⟨1, _⟩ => rfl
  · exact transpose_ix2_apply Wr _ h d

theorem rootT_bias (Wr : FVec Ideal S128x128 .f32) (b : FVec Ideal S128 .f32) (h : Fin 128) :
    rootT (F := Ideal) Wr b (ix2 h (⟨128, by omega⟩ : Fin 136)) = b (ix1 h) := by
  -- column 128 is the second piece, the bias broadcast along a unit axis
  refine (rootT_eq Wr b _).trans ?_
  refine Eq.trans (concatenate_apply_piece (t := S128x136) 1 (rootPieces Wr b) _ _
    1 (Nat.succ_lt_succ (Nat.zero_lt_succ _)) S128x1 _ rfl rfl 128 rfl (ix2 h (0 : Fin 1)) ?_ rfl) ?_
  · intro c hc
    match c, hc with
    | ⟨0, _⟩, _ => rfl
    | ⟨1, _⟩, hc => exact absurd rfl hc
  · refine broadcastInDim_apply _ _ b _ (ix1 h) fun a => ?_
    match a with
    | ⟨0, _⟩ => rfl

theorem rootT_pad (Wr : FVec Ideal S128x128 .f32) (b : FVec Ideal S128 .f32) (h : Fin 128) (k : Fin 136) (hk : 129 ≤ k.val) :
    rootT (F := Ideal) Wr b (ix2 h k) = 0 := by
  -- columns 129 to 135 are the third piece, a broadcast of the constant 0
  refine (rootT_eq Wr b _).trans ?_
  refine Eq.trans (concatenate_apply_piece (t := S128x136) 1 (rootPieces Wr b) _ _
    2 (Nat.succ_lt_succ (Nat.succ_lt_succ (Nat.zero_lt_succ _))) S128x7 _ rfl rfl 129 rfl
    (ix2 h (⟨k.val - 129, by omega⟩ : Fin 7)) ?_ ?_) ?_
  · intro c hc
    match c, hc with
    | ⟨0, _⟩, _ => rfl
    | ⟨1, _⟩, hc => exact absurd rfl hc
  · show 129 + (k.val - 129) = k.val
    omega
  · exact Cert.Consts.ofBits_zero

theorem nbrT_apply (Wn : FVec Ideal S128x128 .f32) (h d : Fin 128) :
    nbrT (F := Ideal) Wn (ix2 h d) = Wn (ix2 d h) := by
  -- rounding is the identity on the extended reals; a transposed matrix at (h, d) is the matrix at (d, h)
  exact transpose_ix2_apply Wn _ h d

end Cert.KernelIdeal.Terms

end
-- ==== Proof.LibScatterSet.lean ====
/-
  A host scatter whose body returns the update (a "set"), read at an index. The scatter is the left fold, over the
  update's indices in row-major order, of "replace the element at the index this update lands on". When no two
  update indices land on one result index, the order does not matter: the result at an index some update lands on
  is that update, and the result at an index none lands on is the operand's element. General in the dimension
  numbers and the element type; nothing here mentions a program.
-/
import Idealize.ShloMosaic.PureOps

namespace Cert.LibScatterSet

open Idealize.ShloMosaic

variable {α : Type} {s si u : Shape} {w : Nat}

/-- A left fold of steps each of which either leaves the accumulator alone or replaces it at ONE index, read at an
    index `i` no step of the list replaces: the starting accumulator's element. `land m` is the index step `m`
    replaces, when it replaces one. -/
private theorem foldl_of_misses {ι β : Type} (land : ι → Option β) (g : (β → α) → ι → β → α)
    (hnone : ∀ r m, land m = none → g r m = r)
    (hne : ∀ r m i i', land m = some i → i' ≠ i → g r m i' = r i')
    (i : β) : ∀ (l : List ι) (r : β → α), (∀ m ∈ l, land m ≠ some i) → l.foldl g r i = r i := by
  intro l
  induction l with
  | nil => intro r _; rfl
  | cons m l ih =>
    intro r hl
    rw [List.foldl_cons, ih (g r m) fun m' hm' => hl m' (List.mem_cons_of_mem m hm')]
    have hm := hl m (List.mem_cons_self ..)
    cases hlm : land m with
    | none => rw [hnone r m hlm]
    | some i₀ =>
      refine hne r m i₀ i hlm fun h => hm ?_
      rw [hlm, h]

/-- The same fold read at an index `i` that step `n` of the list replaces by `v n`, when every step that replaces
    `i` writes the same element there: that element. (Induction from the list's END: the last step either writes
    `i`, with the common element, or leaves `i` to the steps before it, of which `n` is one.) -/
private theorem foldl_of_lands {ι β : Type} (land : ι → Option β) (v : ι → α) (g : (β → α) → ι → β → α)
    (hnone : ∀ r m, land m = none → g r m = r)
    (hne : ∀ r m i i', land m = some i → i' ≠ i → g r m i' = r i')
    (heq : ∀ r m i, land m = some i → g r m i = v m)
    (i : β) (n : ι) (hn : land n = some i) (hsame : ∀ m, land m = some i → v m = v n) :
    ∀ (l : List ι) (r : β → α), n ∈ l → l.foldl g r i = v n := by
  intro l
  induction l using List.reverseRecOn with
  | nil => intro r h; exact absurd h List.not_mem_nil
  | append_singleton l m ih =>
    intro r hmem
    rw [List.foldl_append, List.foldl_cons, List.foldl_nil]
    cases hlm : land m with
    | none =>
      rw [hnone _ m hlm]
      refine ih r ?_
      rcases List.mem_append.1 hmem with h | h
      · exact h
      · rw [List.mem_singleton] at h
        rw [h, hlm] at hn
        exact absurd hn (by simp)
    | some i₀ =>
      by_cases hi : i = i₀
      · subst hi
        rw [heq _ m i hlm]
        exact hsame m hlm
      · rw [hne _ m i₀ i hlm hi]
        refine ih r ?_
        rcases List.mem_append.1 hmem with h | h
        · exact h
        · rw [List.mem_singleton] at h
          rw [h, hlm] at hn
          exact absurd (Option.some.inj hn).symm hi

/-- Where update index `j` lands on `i`, and landing indices are pairwise distinct, the set-scatter holds the update's
    element `j` at `i`. -/
theorem scatter_set_of_lands (d : ScatterDims s si u) (x : s.Idx → α) (idx : IVec si w) (upd : u.Idx → α)
    (hinj : ∀ (j j' : u.Idx) (i : s.Idx), d.resultIdx? j idx = some i → d.resultIdx? j' idx = some i → j = j')
    (j : u.Idx) (i : s.Idx) (hj : d.resultIdx? j idx = some i) :
    Host.scatter d (fun _ b => b) x idx upd i = upd j := by
  unfold Host.scatter
  have hjn : d.resultIdx? (u.rowMajor.symm (u.rowMajor j)) idx = some i := by
    rw [Equiv.symm_apply_apply]; exact hj
  refine (foldl_of_lands (fun n => d.resultIdx? (u.rowMajor.symm n) idx) (fun n => upd (u.rowMajor.symm n)) _
    ?_ ?_ ?_ i (u.rowMajor j) hjn ?_ (List.finRange u.numel) x (List.mem_finRange _)).trans ?_
  · intro r m h
    simp only [h]
  · intro r m i₀ i' h hne
    simp only [h, if_neg hne]
  · intro r m i₀ h
    simp only [h, if_true]
  · intro m hm
    exact congrArg upd (hinj _ _ i hm hjn)
  · exact congrArg upd (Equiv.symm_apply_apply _ j)

/-- Where no update index lands on `i`, the set-scatter keeps the operand's element at `i`. -/
theorem scatter_set_of_misses (d : ScatterDims s si u) (x : s.Idx → α) (idx : IVec si w) (upd : u.Idx → α)
    (i : s.Idx) (hi : ∀ j : u.Idx, d.resultIdx? j idx ≠ some i) :
    Host.scatter d (fun _ b => b) x idx upd i = x i := by
  unfold Host.scatter
  refine foldl_of_misses (fun n => d.resultIdx? (u.rowMajor.symm n) idx) _ ?_ ?_ i (List.finRange u.numel) x
    fun m _ => hi _
  · intro r m h
    simp only [h]
  · intro r m i₀ i' h hne
    simp only [h, if_neg hne]

end Cert.LibScatterSet
-- ==== Proof.OperandsScatter.lean ====
/-
  The two arrays the kernel program pads by a set-scatter at start index 0, read at an index inside the update's
  window: the padded classifier holds the classifier weight in its first ten lanes, the padded bias the classifier
  bias in its first ten lanes. (Update index (h, c) lands on (h, 0 + c): the start is the scalar 0 on the lane axis.)
-/
import proofs.«133347_g37177236914914_cont_8to1_b_461_15_alg».proof.Proof.KernelTerms
import proofs.«133347_g37177236914914_cont_8to1_b_461_15_alg».proof.Proof.LibScatterSet

noncomputable section

namespace Cert.KernelIdeal.Terms

open Idealize.ShloMosaic Idealize.ShloMosaic.ValueIdx Cert.KernelIdeal Cert.KernelIdeal.Gen

variable {F : FTy → Type} [FloatOps F]

/-- An update index lands on `i` when, on every operand axis, the window's start plus the window coordinate is
    `i`'s coordinate: the sum is then inside the operand on every axis, and its natural-number value is `i`'s. -/
private theorem resultIdx?_eq_some {s si u : Shape} {w : Nat} (d : ScatterDims s si u) (j : u.Idx) (idx : IVec si w)
    (i : s.Idx) (h : ∀ a, d.start j idx a + (d.window j a : Int) = ((i a).val : Int)) :
    d.resultIdx? j idx = some i := by
  have H : ∀ a, 0 ≤ d.start j idx a + d.window j a ∧ d.start j idx a + d.window j a < s.size a := by
    intro a
    rw [h a]
    exact ⟨Int.natCast_nonneg _, by exact_mod_cast (i a).isLt⟩
  unfold ScatterDims.resultIdx?
  rw [dif_pos H]
  refine congrArg some (funext fun a => Fin.ext ?_)
  show (d.start j idx a + d.window j a).toNat = (i a).val
  rw [h a]
  exact Int.toNat_natCast _

/-- The window starts at 0 on every axis: the one start index is the scalar 0 (and an axis the map does not name
    starts at 0 anyway). -/
private theorem start_zero {s u : Shape} (d : ScatterDims s S1 u) (j : u.Idx) (a : Fin s.rank) :
    d.start j (broadcastInDim S1 ![] bcast_S_S1 (constantI S_ 32 0#32)) a = 0 := by
  unfold ScatterDims.start
  split
  · show (0#32 : BitVec 32).toInt = 0
    decide
  · rfl

/-- Update index `(p, q)` of the classifier weight lands on `(p, 0 + q)`. -/
private theorem cls_lands (p : Fin 128) (q : Fin 10) :
    scatter_S128x128_S1_S128x10_01_n_1_0.resultIdx? (ix2 p q)
      (broadcastInDim S1 ![] bcast_S_S1 (constantI S_ 32 0#32)) = some (ix2 p (⟨q.val, by omega⟩ : Fin 128)) := by
  refine resultIdx?_eq_some _ _ _ _ fun a => ?_
  rw [start_zero, Int.zero_add]
  refine congrArg Nat.cast ?_
  fin_cases a
  · rfl
  · rfl

/-- Update index `q` of the classifier bias lands on `0 + q`. -/
private theorem bias_lands (q : Fin 10) :
    scatter_S128_S1_S10_0_n_0_0.resultIdx? (ix1 q)
      (broadcastInDim S1 ![] bcast_S_S1 (constantI S_ 32 0#32)) = some (ix1 (⟨q.val, by omega⟩ : Fin 128)) := by
  refine resultIdx?_eq_some _ _ _ _ fun a => ?_
  rw [start_zero, Int.zero_add]
  refine congrArg Nat.cast ?_
  fin_cases a
  rfl

/-- Lane `c < 10` of row `h` of the padded classifier is the classifier weight at `(h, c)`. -/
theorem clsPad_class (Wc : FVec F S128x10 .f32) (h : Fin 128) (c : Fin 10) :
    clsPad Wc (ix2 h (⟨c.val, by omega⟩ : Fin 128)) = Wc (ix2 h c) := by
  unfold clsPad
  refine Cert.LibScatterSet.scatter_set_of_lands _ _ _ _ ?_ (ix2 h c) _ (cls_lands h c)
  -- landing is injective: (p, q) ↦ (p, q) keeps both coordinates
  intro j j' i hj hj'
  obtain ⟨p, q, rfl⟩ : ∃ (p : Fin 128) (q : Fin 10), j = ix2 p q := ⟨j 0, j 1, eq_ix2 j⟩
  obtain ⟨p', q', rfl⟩ : ∃ (p : Fin 128) (q : Fin 10), j' = ix2 p q := ⟨j' 0, j' 1, eq_ix2 j'⟩
  rw [cls_lands] at hj hj'
  have e := (Option.some.inj hj).trans (Option.some.inj hj').symm
  have e0 : p = p' := congrFun e 0
  have e1 : (⟨q.val, by omega⟩ : Fin 128) = ⟨q'.val, by omega⟩ := congrFun e 1
  have e1' : q = q' := Fin.ext (Fin.mk.inj e1)
  rw [e0, e1']

/-- Lane `c < 10` of the padded bias is the classifier bias at `c`. -/
theorem biasPad_class (bc : FVec F S10 .f32) (c : Fin 10) :
    biasPad bc (ix1 (⟨c.val, by omega⟩ : Fin 128)) = bc (ix1 c) := by
  unfold biasPad
  refine Cert.LibScatterSet.scatter_set_of_lands _ _ _ _ ?_ (ix1 c) _ (bias_lands c)
  -- landing is injective: q ↦ q keeps the coordinate
  intro j j' i hj hj'
  obtain ⟨q, rfl⟩ : ∃ q : Fin 10, j = ix1 q := ⟨j 0, eq_ix1 j⟩
  obtain ⟨q', rfl⟩ : ∃ q : Fin 10, j' = ix1 q := ⟨j' 0, eq_ix1 j'⟩
  rw [bias_lands] at hj hj'
  have e := (Option.some.inj hj).trans (Option.some.inj hj').symm
  have e0 : (⟨q.val, by omega⟩ : Fin 128) = ⟨q'.val, by omega⟩ := congrFun e 0
  have e0' : q = q' := Fin.ext (Fin.mk.inj e0)
  rw [e0']

end Cert.KernelIdeal.Terms

end
-- ==== Proof.GraphConvLogits.lean ====
/-
  The function both programs compute, index by index, on the extended reals: one graph-convolution layer over a
  batch of 16 dense graphs of 1024 nodes, mean-pooled and classified.
    edge g i j      = 1 where adj[g, i, j] > 1/2, else 0
    agg g j d       = the sum over source nodes i of  edge g i j * x[g, i, d]
    pre g n h       = (sum_d x[g, n, d] * Wr[d, h]  +  sum_d agg g n d * Wn[d, h])  +  b[h]
    hidden g n h    = max (pre g n h) 0
    pooled g h      = (0 + sum_n hidden g n h) / 1024
    logit g c       = sum_h pooled g h * Wc[h, c]  +  bc[c]
  Indices are built from coordinates of literal extents, so every coordinate has a literal `Fin` type.
-/
import Idealize.ShloMosaic.PureOps.Ideal
import Idealize.ShloMosaic.PureOps.Ideal.Laws
import Idealize.ShloMosaic.Lib.ValueIdx

noncomputable section

open scoped BigOperators

namespace Cert.GraphConv

open Idealize.ShloMosaic Idealize.ShloMosaic.ValueIdx

/-- Node features, [graph, node, feature]. -/
abbrev Feat : Shape := ⟨3, ![16, 1024, 128]⟩
/-- Dense adjacency, [graph, source node, destination node]. -/
abbrev Adj : Shape := ⟨3, ![16, 1024, 1024]⟩
/-- A layer weight, [feature, hidden]. -/
abbrev Sq : Shape := ⟨2, ![128, 128]⟩
/-- The layer bias, [hidden]. -/
abbrev Hid : Shape := ⟨1, ![128]⟩
/-- The classifier weight, [hidden, class]. -/
abbrev Cls : Shape := ⟨2, ![128, 10]⟩
/-- The classifier bias, [class]. -/
abbrev Cl : Shape := ⟨1, ![10]⟩
/-- The logits, [graph, class]. -/
abbrev Out : Shape := ⟨2, ![16, 10]⟩

variable (x : FVec Ideal Feat .f32) (adj : FVec Ideal Adj .f32) (Wr Wn : FVec Ideal Sq .f32)
  (b : FVec Ideal Hid .f32) (Wc : FVec Ideal Cls .f32) (bc : FVec Ideal Cl .f32)

/-- The edge indicator of graph `g`: 1 where the adjacency entry from `i` to `j` exceeds one half, else 0. -/
def edge (g : Fin 16) (i j : Fin 1024) : EReal :=
  FloatOps.uitofp (F := Ideal) .f32 (FloatOps.cmpf (F := Ideal) .ogt (adj (ix3 g i j)) (FloatOps.ofBits (F := Ideal) .f32 0x3F000000#32))

/-- Feature `d` aggregated at destination node `j`: the sum over the source nodes of the edges into `j`. -/
def agg (g : Fin 16) (j : Fin 1024) (d : Fin 128) : EReal :=
  ∑ i : Fin 1024, edge adj g i j * x (ix3 g i d)

/-- The layer before its rectifier: the root term plus the neighbour term, plus the bias. -/
def pre (g : Fin 16) (n : Fin 1024) (h : Fin 128) : EReal :=
  (∑ d : Fin 128, x (ix3 g n d) * Wr (ix2 d h) + ∑ d : Fin 128, agg x adj g n d * Wn (ix2 d h)) + b (ix1 h)

/-- The rectified layer. -/
def hidden (g : Fin 16) (n : Fin 1024) (h : Fin 128) : EReal :=
  max (pre x adj Wr Wn b g n h) (FloatOps.ofBits (F := Ideal) .f32 0x00000000#32)

/-- The mean over the 1024 nodes of a graph, as the reference spells it: a sum from 0, divided by 1024. -/
def pooled (g : Fin 16) (h : Fin 128) : EReal :=
  FloatOps.hostDivf (F := Ideal) (FloatOps.ofBits (F := Ideal) .f32 0x00000000#32 + ∑ n : Fin 1024, hidden x adj Wr Wn b g n h)
    (FloatOps.ofBits (F := Ideal) .f32 0x44800000#32)

/-- One logit. -/
def logit (g : Fin 16) (c : Fin 10) : EReal :=
  (∑ h : Fin 128, pooled x adj Wr Wn b g h * Wc (ix2 h c)) + bc (ix1 c)

/-- The logits as an array. -/
def logits : FVec Ideal Out .f32 := fun j => logit x adj Wr Wn b Wc bc (j 0) (j 1)

end Cert.GraphConv

end
-- ==== Proof.KernelLogits.lean ====
/-
  The kernel program's value is the logits. The region writes, for graph g and lane c, the block function of graph g's
  adjacency slab, graph g's augmented transposed features and the three weight arrays; the host then keeps lanes 0 to 9
  and adds the padded bias. Against the formula of the logits:
    * the root contraction over 136 terms splits as 128 + 1 + 7: the first 128 are Wr[d, h] * x[g, n, d], term 128 is
      b[h] * 1, and the last seven are 0 * 0;
    * the aggregation and the neighbour contraction are the reference's with the factors of each product swapped;
    * (root + bias) + neighbour is (root + neighbour) + bias, by commutativity and associativity of + alone;
    * the sum over nodes times 2^-10 is (0 + the sum) divided by 2^10, on every extended real;
    * lanes 0 to 9 of the padded classifier and of the padded bias are the classifier's and the bias's.
  Only commutativity and associativity of + and *, 0 * 0 = 0 and b * 1 = b are used: no distributivity, so the inputs'
  finiteness is not needed.
-/
import proofs.«133347_g37177236914914_cont_8to1_b_461_15_alg».proof.Proof.KernelTerms
import proofs.«133347_g37177236914914_cont_8to1_b_461_15_alg».proof.Proof.RegionOut
import proofs.«133347_g37177236914914_cont_8to1_b_461_15_alg».proof.Proof.OperandsConcat
import proofs.«133347_g37177236914914_cont_8to1_b_461_15_alg».proof.Proof.OperandsScatter
import proofs.«133347_g37177236914914_cont_8to1_b_461_15_alg».proof.Proof.GraphConvLogits
import proofs.«133347_g37177236914914_cont_8to1_b_461_15_alg».proof.Proof.Consts
import Idealize.ShloMosaic.Lib.Pipeline.Value
import Idealize.ShloMosaic.Lib.ValueLayout

noncomputable section

open scoped BigOperators

namespace Cert.KernelIdeal.Terms

open Idealize.ShloMosaic Idealize.ShloMosaic.ValueIdx Cert.KernelIdeal Cert.KernelIdeal.Gen Cert.GraphConv

/-- The host operations after the region, read at graph `g` and class `c`: lane c of row g plus lane c of the padded bias. -/
theorem tail_apply (o : FVec Ideal S16x1x128 .f32) (bp : FVec Ideal S128 .f32) (g : Fin 16) (c : Fin 10) :
    tail (F := Ideal) o bp (ix2 g c) = o (ix3 g (0 : Fin 1) (⟨c.val, by omega⟩ : Fin 128)) + bp (ix1 (⟨c.val, by omega⟩ : Fin 128)) := by
  unfold tail
  rw [addf_apply]
  congr 1
  · -- the reshape [16, 1, 10] → [16, 10] keeps the row-major position: (g * 1 + 0) * 10 + c = g * 10 + c
    refine (shapeCast_apply _ _ (ix2 g c) (ix3 g (0 : Fin 1) c) ?_).trans ?_
    · rw [Shape.rowMajor_val_three, Shape.rowMajor_val_two]
      show (g.val * 1 + 0) * 10 + c.val = g.val * 10 + c.val
      omega
    · exact extractStridedSlice_apply _ o _ (ix3 g (0 : Fin 1) c) (ix3 g (0 : Fin 1) (⟨c.val, by omega⟩ : Fin 128)) (fun a => by
        match a with
        | ⟨0, _⟩ => show g.val = 0 + g.val; omega
        | ⟨1, _⟩ => show (0 : ℕ) = 0 + 0; rfl
        | ⟨2, _⟩ => show c.val = 0 + c.val; omega)
  · -- the bias row is broadcast down the 16 graphs: read it at the class alone
    refine (broadcastInDim_apply _ _ _ (ix2 g c) (ix2 (0 : Fin 1) c) (fun a => by
      match a with
      | ⟨0, _⟩ => rfl
      | ⟨1, _⟩ => rfl)).trans ?_
    refine (broadcastInDim_apply _ _ _ (ix2 (0 : Fin 1) c) (ix1 c) (fun a => by
      match a with
      | ⟨0, _⟩ => rfl)).trans ?_
    exact extractStridedSlice_apply _ bp _ (ix1 c) (ix1 (⟨c.val, by omega⟩ : Fin 128)) (fun a => by
      match a with
      | ⟨0, _⟩ => show c.val = 0 + c.val; omega)

/-- A sum over 136 terms is the sum of the first 128 plus the eight that follow. -/
theorem sum_136 (f : Fin 136 → EReal) :
    ∑ k : Fin 136, f k = ∑ d : Fin 128, f ⟨d.val, by omega⟩
      + (f ⟨128, by omega⟩ + f ⟨129, by omega⟩ + f ⟨130, by omega⟩ + f ⟨131, by omega⟩ + f ⟨132, by omega⟩ + f ⟨133, by omega⟩
          + f ⟨134, by omega⟩ + f ⟨135, by omega⟩) := by
  have h := Fin.sum_univ_add (a := 128) (b := 8) (f := f)
  rw [Fin.sum_univ_eight] at h
  exact h

section
variable (x : FVec Ideal S16x1024x128 .f32) (adj : FVec Ideal S16x1024x1024 .f32) (Wr Wn : FVec Ideal S128x128 .f32)
  (b : FVec Ideal S128 .f32) (Wc : FVec Ideal S128x10 .f32) (bc : FVec Ideal S10 .f32)

/-- The root contraction with the bias folded in: 136 terms, of which 128 are the root product, one is the bias times
    one, and seven are zero times zero. -/
theorem root_term (g : Fin 16) (n : Fin 1024) (h : Fin 128) :
    ∑ k : Fin 136, rootT (F := Ideal) Wr b (ix2 h k) * slab (featT (F := Ideal) x) g (ix3 (0 : Fin 1) k n)
      = ∑ d : Fin 128, x (ix3 g n d) * Wr (ix2 d h) + b (ix1 h) := by
  -- a slab entry is the batched array's entry of graph g
  have hs : ∀ k : Fin 136, slab (featT (F := Ideal) x) g (ix3 (0 : Fin 1) k n) = featT (F := Ideal) x (ix3 g k n) := fun _ => rfl
  have e1 : ∀ d : Fin 128, rootT (F := Ideal) Wr b (ix2 h (⟨d.val, by omega⟩ : Fin 136))
      * slab (featT (F := Ideal) x) g (ix3 (0 : Fin 1) (⟨d.val, by omega⟩ : Fin 136) n) = x (ix3 g n d) * Wr (ix2 d h) := fun d => by
    rw [hs, rootT_weight, featT_feature]; exact mul_comm _ _
  have e128 : rootT (F := Ideal) Wr b (ix2 h (⟨128, by omega⟩ : Fin 136))
      * slab (featT (F := Ideal) x) g (ix3 (0 : Fin 1) (⟨128, by omega⟩ : Fin 136) n) = b (ix1 h) := by
    rw [hs, rootT_bias, featT_one]; exact mul_one _
  have epad : ∀ k : Fin 136, 129 ≤ k.val →
      rootT (F := Ideal) Wr b (ix2 h k) * slab (featT (F := Ideal) x) g (ix3 (0 : Fin 1) k n) = 0 := fun k hk => by
    rw [rootT_pad Wr b h k hk]; exact zero_mul _
  rw [sum_136, Finset.sum_congr rfl (fun d _ => e1 d), e128,
    epad ⟨129, by omega⟩ (by show 129 ≤ 129; omega), epad ⟨130, by omega⟩ (by show 129 ≤ 130; omega),
    epad ⟨131, by omega⟩ (by show 129 ≤ 131; omega), epad ⟨132, by omega⟩ (by show 129 ≤ 132; omega),
    epad ⟨133, by omega⟩ (by show 129 ≤ 133; omega), epad ⟨134, by omega⟩ (by show 129 ≤ 134; omega),
    epad ⟨135, by omega⟩ (by show 129 ≤ 135; omega)]
  simp only [add_zero]

/-- The neighbour contraction over the aggregation x^T A is the reference's, the factors of each product swapped. -/
theorem nbr_term (g : Fin 16) (n : Fin 1024) (h : Fin 128) :
    ∑ d : Fin 128, nbrT (F := Ideal) Wn (ix2 h d) *
        (∑ i : Fin 1024, slab (featT (F := Ideal) x) g (ix3 (0 : Fin 1) (⟨d.val, by omega⟩ : Fin 136) i) *
          FloatOps.uitofp (F := Ideal) .f32 (FloatOps.cmpf (F := Ideal) .ogt (slab adj g (ix3 (0 : Fin 1) i n))
            (FloatOps.ofBits (F := Ideal) .f32 0x3F000000#32)))
      = ∑ d : Fin 128, agg x adj g n d * Wn (ix2 d h) := by
  refine Finset.sum_congr rfl fun d _ => ?_
  rw [nbrT_apply, mul_comm]
  refine congrArg (· * Wn (ix2 d h)) ?_
  unfold agg
  refine Finset.sum_congr rfl fun i _ => ?_
  show featT (F := Ideal) x (ix3 g (⟨d.val, by omega⟩ : Fin 136) i) * edge adj g i n = edge adj g i n * x (ix3 g i d)
  rw [featT_feature]; exact mul_comm _ _

/-- One lane of the region's row for graph g, plus the padded bias's lane, is the logit. -/
theorem block_is_logit (g : Fin 16) (c : Fin 10) :
    blockLogit (slab adj g) (slab (featT (F := Ideal) x) g) (rootT (F := Ideal) Wr b) (nbrT (F := Ideal) Wn) (clsPad (F := Ideal) Wc)
        (⟨c.val, by omega⟩ : Fin 128)
      + biasPad (F := Ideal) bc (ix1 (⟨c.val, by omega⟩ : Fin 128))
      = logit x adj Wr Wn b Wc bc g c := by
  unfold blockLogit logit
  rw [biasPad_class]
  refine congrArg (· + bc (ix1 c)) ?_
  refine Finset.sum_congr rfl fun h _ => ?_
  rw [clsPad_class]
  refine congrArg (· * Wc (ix2 h c)) ?_
  -- the pooled row: (0 + the sum over nodes) / 2^10 is the sum times 2^-10
  unfold pooled
  rw [show ∀ y : EReal, FloatOps.hostDivf (F := Ideal) y (FloatOps.ofBits (F := Ideal) .f32 0x44800000#32)
        = y * FloatOps.ofBits (F := Ideal) .f32 0x3A800000#32 from Cert.Consts.div_1024]
  refine congrArg (· * FloatOps.ofBits (F := Ideal) .f32 0x3A800000#32) ?_
  rw [show ∀ y : EReal, FloatOps.ofBits (F := Ideal) .f32 0x00000000#32 + y = y from fun y => by
        rw [Ideal.ofBits_def, Cert.Consts.ofBits_zero, zero_add]]
  refine Finset.sum_congr rfl fun n _ => ?_
  unfold Cert.GraphConv.hidden Cert.GraphConv.pre
  rw [root_term, nbr_term]
  refine congrArg (max · (FloatOps.ofBits (F := Ideal) .f32 0x00000000#32)) ?_
  exact add_right_comm _ _ _

/-- The kernel program's value, as a function of its seven arguments, is the logits. -/
theorem kernel_is_logits :
    tail (F := Ideal) (regionOut adj (featT (F := Ideal) x) (rootT (F := Ideal) Wr b) (nbrT (F := Ideal) Wn) (clsPad (F := Ideal) Wc))
        (biasPad (F := Ideal) bc)
      = logits x adj Wr Wn b Wc bc := by
  funext j
  obtain ⟨g, c, rfl⟩ : ∃ (g : Fin 16) (c : Fin 10), j = ix2 g c := ⟨j 0, j 1, eq_ix2 j⟩
  rw [tail_apply]
  exact block_is_logit x adj Wr Wn b Wc bc g c

end

end Cert.KernelIdeal.Terms

end
-- ==== Proof.ReferenceLogits.lean ====
/-
  The reference program read one operation at a time: its last result, as a function of the seven argument arrays,
  is the graph-convolution logits written index by index.
-/
import proofs.«133347_g37177236914914_cont_8to1_b_461_15_alg».proof.Proof.Gen.ReferenceIdeal.Read
import proofs.«133347_g37177236914914_cont_8to1_b_461_15_alg».proof.Proof.GraphConvLogits

noncomputable section

namespace Cert.ReferenceIdeal.Logits

open Idealize.ShloMosaic Idealize.ShloMosaic.ValueIdx Cert.ReferenceIdeal Cert.ReferenceIdeal.Gen

/-! Each lemma below reads one stretch of the reference at an index built from literal coordinates and finds the
    matching line of the specification. The index functions of the contractions, broadcasts and the node sum are
    literal matches on the axis, so each composite index equals the coordinate-built one axis by axis. -/

/-- The compare against the broadcast one half, converted to a float, is the edge indicator at (graph, source, destination). -/
private theorem edge_at (x1 : FVec Ideal S16x1024x1024 .f32) (g : Fin 16) (i j : Fin 1024) :
    Read.val_main_v2 (F := Ideal) x1 (ix3 g i j) = Cert.GraphConv.edge x1 g i j := by
  rw [Read.val_main_v2_apply, Read.val_main_v1_apply, Read.val_main_v0_apply, Read.val_main_cst_apply]
  rfl

/-- The batched contraction over the source node (left axis 1 against right axis 1, batch axis 0) is the aggregation:
    at (g, j, d) its left operand is read at (g, k, j) and its right operand at (g, k, d). -/
private theorem agg_at (x0 : FVec Ideal S16x1024x128 .f32) (x1 : FVec Ideal S16x1024x1024 .f32)
    (g : Fin 16) (j : Fin 1024) (d : Fin 128) :
    Read.val_main_v3 (F := Ideal) x0 x1 (ix3 g j d) = Cert.GraphConv.agg x0 x1 g j d := by
  rw [Read.val_main_v3_apply]
  refine Finset.sum_congr rfl fun k _ => ?_
  have el : Read.lidx_main_v3 (ix3 g j d) k = ix3 g k j :=
    funext fun a => Fin.ext (by match a with | ⟨0, _⟩ => rfl | ⟨1, _⟩ => rfl | ⟨2, _⟩ => rfl)
  have er : Read.ridx_main_v3 (ix3 g j d) k = ix3 g k d :=
    funext fun a => Fin.ext (by match a with | ⟨0, _⟩ => rfl | ⟨1, _⟩ => rfl | ⟨2, _⟩ => rfl)
  rw [el, er, edge_at]

/-- The root term: the features of node n contracted over the feature axis with the root weight. -/
private theorem root_at (x0 : FVec Ideal S16x1024x128 .f32) (x2 : FVec Ideal S128x128 .f32)
    (g : Fin 16) (n : Fin 1024) (h : Fin 128) :
    Read.val_main_v4 (F := Ideal) x0 x2 (ix3 g n h) = ∑ d : Fin 128, x0 (ix3 g n d) * x2 (ix2 d h) := by
  rw [Read.val_main_v4_apply]
  refine Finset.sum_congr rfl fun k _ => ?_
  have el : Read.lidx_main_v4 (ix3 g n h) k = ix3 g n k :=
    funext fun a => Fin.ext (by match a with | ⟨0, _⟩ => rfl | ⟨1, _⟩ => rfl | ⟨2, _⟩ => rfl)
  have er : Read.ridx_main_v4 (ix3 g n h) k = ix2 k h :=
    funext fun a => Fin.ext (by match a with | ⟨0, _⟩ => rfl | ⟨1, _⟩ => rfl)
  rw [el, er]

/-- The neighbour term: the aggregation at node n contracted over the feature axis with the neighbour weight. -/
private theorem nbr_at (x0 : FVec Ideal S16x1024x128 .f32) (x1 : FVec Ideal S16x1024x1024 .f32) (x3 : FVec Ideal S128x128 .f32)
    (g : Fin 16) (n : Fin 1024) (h : Fin 128) :
    Read.val_main_v5 (F := Ideal) x0 x1 x3 (ix3 g n h) = ∑ d : Fin 128, Cert.GraphConv.agg x0 x1 g n d * x3 (ix2 d h) := by
  rw [Read.val_main_v5_apply]
  refine Finset.sum_congr rfl fun k _ => ?_
  have el : Read.lidx_main_v5 (ix3 g n h) k = ix3 g n k :=
    funext fun a => Fin.ext (by match a with | ⟨0, _⟩ => rfl | ⟨1, _⟩ => rfl | ⟨2, _⟩ => rfl)
  have er : Read.ridx_main_v5 (ix3 g n h) k = ix2 k h :=
    funext fun a => Fin.ext (by match a with | ⟨0, _⟩ => rfl | ⟨1, _⟩ => rfl)
  rw [el, er, agg_at]

/-- The layer bias broadcast along graphs and nodes, read at (g, n, h), is the bias at h. -/
private theorem bias_at (x4 : FVec Ideal S128 .f32) (g : Fin 16) (n : Fin 1024) (h : Fin 128) :
    Read.val_main_v8 (F := Ideal) x4 (ix3 g n h) = x4 (ix1 h) := by
  rw [Read.val_main_v8_apply, Read.val_main_v7_apply]
  exact congrArg x4 (funext fun a => Fin.ext (by match a with | ⟨0, _⟩ => rfl))

/-- Root term plus neighbour term plus bias is the layer before its rectifier. -/
private theorem pre_at (x0 : FVec Ideal S16x1024x128 .f32) (x1 : FVec Ideal S16x1024x1024 .f32)
    (x2 x3 : FVec Ideal S128x128 .f32) (x4 : FVec Ideal S128 .f32) (g : Fin 16) (n : Fin 1024) (h : Fin 128) :
    Read.val_main_v9 (F := Ideal) x0 x1 x2 x3 x4 (ix3 g n h) = Cert.GraphConv.pre x0 x1 x2 x3 x4 g n h := by
  rw [Read.val_main_v9_apply, Read.val_main_v6_apply, root_at, nbr_at, bias_at]
  rfl

/-- The maximum with the broadcast zero is the rectified layer. -/
private theorem hidden_at (x0 : FVec Ideal S16x1024x128 .f32) (x1 : FVec Ideal S16x1024x1024 .f32)
    (x2 x3 : FVec Ideal S128x128 .f32) (x4 : FVec Ideal S128 .f32) (g : Fin 16) (n : Fin 1024) (h : Fin 128) :
    Read.val_main_v10 (F := Ideal) x0 x1 x2 x3 x4 (ix3 g n h) = Cert.GraphConv.hidden x0 x1 x2 x3 x4 g n h := by
  rw [Read.val_main_v10_apply, pre_at, Read.val_main_call0_v0_apply, Read.val_main_call0_cst_apply]
  rfl

/-- The sum over the node axis from the zero word, divided by the broadcast 1024, is the mean over nodes:
    at (g, h) the summand is read at (g, n, h). -/
private theorem pooled_at (x0 : FVec Ideal S16x1024x128 .f32) (x1 : FVec Ideal S16x1024x1024 .f32)
    (x2 x3 : FVec Ideal S128x128 .f32) (x4 : FVec Ideal S128 .f32) (g : Fin 16) (h : Fin 128) :
    Read.val_main_v13 (F := Ideal) x0 x1 x2 x3 x4 (ix2 g h) = Cert.GraphConv.pooled x0 x1 x2 x3 x4 g h := by
  have hs : ∀ k : Fin 1024, Read.val_main_v10 (F := Ideal) x0 x1 x2 x3 x4 (Read.idx_main_v11 (ix2 g h) k)
      = Cert.GraphConv.hidden x0 x1 x2 x3 x4 g k h := fun k => by
    have e : Read.idx_main_v11 (ix2 g h) k = ix3 g k h :=
      funext fun a => Fin.ext (by match a with | ⟨0, _⟩ => rfl | ⟨1, _⟩ => rfl | ⟨2, _⟩ => rfl)
    rw [e, hidden_at]
  rw [Read.val_main_v13_apply, Read.val_main_v11_apply, Read.val_main_cst_0_apply, Read.val_main_v12_apply,
    Read.val_main_cst_1_apply, Finset.sum_congr rfl fun k _ => hs k]
  rfl

/-- The last contraction over the hidden axis: at (g, c) the mean is read at (g, h) and the classifier weight at (h, c). -/
private theorem cls_at (x0 : FVec Ideal S16x1024x128 .f32) (x1 : FVec Ideal S16x1024x1024 .f32)
    (x2 x3 : FVec Ideal S128x128 .f32) (x4 : FVec Ideal S128 .f32) (x5 : FVec Ideal S128x10 .f32) (g : Fin 16) (c : Fin 10) :
    Read.val_main_v14 (F := Ideal) x0 x1 x2 x3 x4 x5 (ix2 g c)
      = ∑ h : Fin 128, Cert.GraphConv.pooled x0 x1 x2 x3 x4 g h * x5 (ix2 h c) := by
  rw [Read.val_main_v14_apply]
  refine Finset.sum_congr rfl fun k _ => ?_
  have el : Read.lidx_main_v14 (ix2 g c) k = ix2 g k :=
    funext fun a => Fin.ext (by match a with | ⟨0, _⟩ => rfl | ⟨1, _⟩ => rfl)
  have er : Read.ridx_main_v14 (ix2 g c) k = ix2 k c :=
    funext fun a => Fin.ext (by match a with | ⟨0, _⟩ => rfl | ⟨1, _⟩ => rfl)
  rw [el, er, pooled_at]

/-- The classifier bias broadcast along graphs, read at (g, c), is the bias at c. -/
private theorem cbias_at (x6 : FVec Ideal S10 .f32) (g : Fin 16) (c : Fin 10) :
    Read.val_main_v16 (F := Ideal) x6 (ix2 g c) = x6 (ix1 c) := by
  rw [Read.val_main_v16_apply, Read.val_main_v15_apply]
  exact congrArg x6 (funext fun a => Fin.ext (by match a with | ⟨0, _⟩ => rfl))

/-- The reference's result term is the logits: each of its operations, read at an index, is the next line of the
    formula (the compare and convert give the edge indicator, the three contractions the aggregation and the two
    layer products, the sum over nodes divided by 1024 the mean, the last contraction plus the bias the logit). -/
theorem reference_is_logits (x0 : FVec Ideal S16x1024x128 .f32) (x1 : FVec Ideal S16x1024x1024 .f32)
    (x2 x3 : FVec Ideal S128x128 .f32) (x4 : FVec Ideal S128 .f32) (x5 : FVec Ideal S128x10 .f32) (x6 : FVec Ideal S10 .f32) :
    Cert.ReferenceIdeal.Read.val_main_v17 (F := Ideal) x0 x1 x2 x3 x4 x5 x6 = Cert.GraphConv.logits x0 x1 x2 x3 x4 x5 x6 := by
  funext j
  obtain ⟨g, c, rfl⟩ : ∃ (g : Fin 16) (c : Fin 10), j = ix2 g c := ⟨j 0, j 1, eq_ix2 j⟩
  rw [Read.val_main_v17_apply, cls_at, cbias_at]
  rfl

end Cert.ReferenceIdeal.Logits

end
-- ==== Proof.lean ====
/-
  The certificate of a fused graph-convolution kernel against its jnp reference, over the extended reals.

  Both programs compute, for each of 16 dense graphs of 1024 nodes, the logits of one GraphConv layer, mean-pooled and
  classified:  logit g c = sum_h ((0 + sum_n max (sum_d x[g,n,d] Wr[d,h] + sum_d agg[g,n,d] Wn[d,h] + b[h]) 0) / 1024) Wc[h,c] + bc[c],
  with agg[g,n,d] = sum_i [adj[g,i,n] > 1/2] x[g,i,d].  The reference spells it so. The kernel evaluates it transposed, one
  graph per grid point: the aggregation as x^T A over the thresholded adjacency slab; the root product with the bias folded
  in as a 129th contraction term (a row of ones under the features, the bias as a column beside the weights, seven rows
  and columns of zeros for alignment); the mean as a product with 2^-10; the classifier padded to 128 lanes and cut back to
  ten by the host. On the extended reals the two agree by commutativity and associativity of + and *, 0 * 0 = 0, b * 1 = b,
  and x / 2^10 = x * 2^-10; nothing distributes over a sum, so the inputs' finiteness is never used.

  The three frames: the reference is host operations only (its run); each kernel program is host operations, one region,
  host operations, and its frame is the region's launch with the body run on whole staging buffers.
-/
import proofs.«133347_g37177236914914_cont_8to1_b_461_15_alg».proof.Defs
import proofs.«133347_g37177236914914_cont_8to1_b_461_15_alg».proof.Proof.Gen.Kernel
import proofs.«133347_g37177236914914_cont_8to1_b_461_15_alg».proof.Proof.Gen.KernelIdeal
import proofs.«133347_g37177236914914_cont_8to1_b_461_15_alg».proof.Proof.Gen.ReferenceIdeal
import proofs.«133347_g37177236914914_cont_8to1_b_461_15_alg».proof.Proof.Gen.Pre_finite_inputs
import proofs.«133347_g37177236914914_cont_8to1_b_461_15_alg».proof.Proof.Gen.ReferenceIdeal.Run
import proofs.«133347_g37177236914914_cont_8to1_b_461_15_alg».proof.Proof.Gen.ReferenceIdeal.Read
import proofs.«133347_g37177236914914_cont_8to1_b_461_15_alg».proof.Proof.KernelRegion
import proofs.«133347_g37177236914914_cont_8to1_b_461_15_alg».proof.Proof.KernelIdealRegion
import proofs.«133347_g37177236914914_cont_8to1_b_461_15_alg».proof.Proof.KernelValue
import proofs.«133347_g37177236914914_cont_8to1_b_461_15_alg».proof.Proof.KernelLogits
import proofs.«133347_g37177236914914_cont_8to1_b_461_15_alg».proof.Proof.ReferenceLogits
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Region.frame m ρ

/-- So does the kernel program read on the extended reals. -/
theorem frame_kernelIdeal : Cert.frame_KernelIdeal := fun m ρ _ => Cert.KernelIdeal.Region.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the seven arguments, the kernel's result array ends at the tail of its region's output over
    the host-built operands, the reference's at its last stage; both are the logits of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) _ _ _ _ _ _ _).trans ?_
  refine (Cert.ReferenceIdeal.Logits.reference_is_logits _ _ _ _ _ _ _).trans ?_
  rw [(hagree c).1, (hagree c).2.1, (hagree c).2.2.1, (hagree c).2.2.2.1, (hagree c).2.2.2.2.1, (hagree c).2.2.2.2.2.1,
    (hagree c).2.2.2.2.2.2]
  exact (Cert.KernelIdeal.Terms.kernel_is_logits _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
